-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x64 : S_.BroadcastsInDim S3x128x64 (![] : Fin 0 → Fin S3x128x64.rank)
  reducesTo_S3x128x64_S_d0_1_2 : S3x128x64.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S3x128x64 .f32) (main_arg7 : FVec F S64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x64 .f32 := Host.absf main_arg6
  let main_cst_6 : FVec F S_ .f32 := constant S_ .f32 0x7F800000#32
  let main_v20 : FVec F S3x128x64 .f32 := broadcastInDim S3x128x64 ![] bcast_S_S3x128x64 main_cst_6
  let main_v21 : IVec S3x128x64 1 := cmpf .olt main_v19 main_v20
  let main_c_7 : IVec S_ 1 := constantI S_ 1 1#1
  let main_v22 : IVec S_ 1 := (fun x v => Host.reduce IntOp.andi x v reducesTo_S3x128x64_S_d0_1_2 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x128 .f32) (main_arg4 : FVec F S128 .f32) (main_arg5 : FVec F S128 .f32) (main_arg6 : FVec F S3x128x64 .f32) (main_arg7 : FVec F S64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x128x128 : Shape := ⟨3, ![1, 128, 128]⟩
abbrev S128x128 : Shape := ⟨2, ![128, 128]⟩
abbrev S1x64 : Shape := ⟨2, ![1, 64]⟩
abbrev S100000x64 : Shape := ⟨2, ![100000, 64]⟩
abbrev S5000x64 : Shape := ⟨2, ![5000, 64]⟩
abbrev S1x128x64 : Shape := ⟨3, ![1, 128, 64]⟩
abbrev S128x64 : Shape := ⟨2, ![128, 64]⟩
abbrev S100000x1 : Shape := ⟨2, ![100000, 1]⟩
abbrev S64x64 : Shape := ⟨2, ![64, 64]⟩
abbrev S5000x1 : Shape := ⟨2, ![5000, 1]⟩
abbrev S64x1 : Shape := ⟨2, ![64, 1]⟩

abbrev nBuf : Space → Nat
  | .hbm => 134
  | .vmem => 27
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S128, .f32⟩
  | 5 => ⟨S128, .f32⟩
  | 6 => ⟨S3x128x64, .f32⟩
  | 7 => ⟨S64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000, .f32⟩
  | 50 => ⟨S1600000x1, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S1600000x128, .f32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S1600000x1, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S1600000x128, .f32⟩
  | 76 => ⟨S1600000x128, .f32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1x128, .f32⟩
  | 83 => ⟨S1x128, .f32⟩
  | 84 => ⟨S100000x128, .f32⟩
  | 85 => ⟨S1600000x1, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x128, .f32⟩
  | 95 => ⟨S1600000x128, .f32⟩
  | 96 => ⟨S1600000x128, .f32⟩
  | 97 => ⟨S_, .f32⟩
  | 98 => ⟨S100000x128, .f32⟩
  | 99 => ⟨S1600000x1, .i32⟩
  | 100 => ⟨S100000x128, .f32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x128, .f32⟩
  | 111 => ⟨S1600000x128, .f32⟩
  | 112 => ⟨S1600000x128, .f32⟩
  | 113 => ⟨S_, .f32⟩
  | 114 => ⟨S100000x128, .f32⟩
  | 115 => ⟨S1600000x1, .i32⟩
  | 116 => ⟨S100000x128, .f32⟩
  | 117 => ⟨S1x64, .f32⟩
  | 118 => ⟨S1x64, .f32⟩
  | 119 => ⟨S100000x64, .f32⟩
  | 120 => ⟨S100000x1, .i32⟩
  | 121 => ⟨S64x64, .f32⟩
  | 122 => ⟨S_, .f32⟩
  | 123 => ⟨S100000, .f32⟩
  | 124 => ⟨S_, .f32⟩
  | 125 => ⟨S64, .f32⟩
  | 126 => ⟨S100000x1, .i32⟩
  | 127 => ⟨S64, .f32⟩
  | _ => ⟨S100000x128, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x64, .f32⟩
  | 5 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S3x128x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S3x128x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .i32⟩
  | .local _ .vmem, ⟨25, _⟩ => ⟨S5000x1, .i32⟩
  | .local _ .vmem, ⟨26, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_c_8 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_10 : Ref sig .tc := ⟨.hbm, 67, rfl⟩
abbrev main_v44 : Ref sig .tc := ⟨.hbm, 68, rfl⟩
abbrev main_v45 : Ref sig .tc := ⟨.hbm, 69, rfl⟩
abbrev main_c_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_12 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_c_17 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_18 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_19 : Ref sig .tc := ⟨.hbm, 122, rfl⟩
abbrev main_v90 : Ref sig .tc := ⟨.hbm, 123, rfl⟩
abbrev main_cst_20 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_21 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S3x128x64_S1x128x64_0_0_0 : ∀ a, (![0, 0, 0] : Fin 3 → Nat) a + S1x128x64.size a ≤ S3x128x64.size a
  h_S1x128x64 : 0 < S1x128x64.numel
  shapeCasts_S1x128x64_S128x64 : S1x128x64.ShapeCasts S128x64
  inb_S3x128x64_S1x128x64_1_0_0 : ∀ a, (![1, 0, 0] : Fin 3 → Nat) a + S1x128x64.size a ≤ S3x128x64.size a
  inb_S3x128x64_S1x128x64_2_0_0 : ∀ a, (![2, 0, 0] : Fin 3 → Nat) a + S1x128x64.size a ≤ S3x128x64.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S100000_S100000x1 : S100000.ShapeCasts S100000x1
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x64_d1_w32 : S5000x64.Iotas .tc 32 [1]
  broadcasts_S5000x1_S5000x64 : S5000x1.Broadcasts S5000x64
  natLt_1_32 : 1 < 32
  shapeCasts_S5000x64_S5000x64 : S5000x64.ShapeCasts S5000x64
  shapeCasts_S64x64_S64x64 : S64x64.ShapeCasts S64x64
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  dot_S5000x64_S5000x64_S64x64_0_0_1_1_n_n_wf : DotDims.WF S5000x64 S5000x64 S64x64 [0] [0] [1] [1] [] []
  scatter_S64_S100000x1_S100000_n_0_0_1_wf : ScatterDims.WF S64 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .f32 = 32 ∨ (Rect.block (s := S3x128x128) S3x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x64.size a ≤ S3x128x64.size a
  hwx1_3 : ∀ i : grid1.Coords, EltTy.bits .f32 = 32 ∨ (Rect.block (s := S3x128x64) S3x128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .i32 = 32 ∨ (Rect.block (s := S100000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S5000x64_S64x64_0_0_1_1_n_n : DotDims S5000x64 S5000x64 S64x64 where
  lhsContracting := [0]
  rhsContracting := [0]
  lhsNonContracting := [1]
  rhsNonContracting := [1]
  lhsBatch := []
  rhsBatch := []
  wf := dot_S5000x64_S5000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v42) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v55) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v56) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v57) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v58) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v58) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v84) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S3x128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v85) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v86) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v87) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v87) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v88) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v89) S64x64.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S128 : Shape := ⟨1, ![128]⟩
abbrev S3x128x64 : Shape := ⟨3, ![3, 128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S1x128x64 : Shape := ⟨3, ![1, 128, 64]⟩
abbrev S128x64 : Shape := ⟨2, ![128, 64]⟩
abbrev S100000x64 : Shape := ⟨2, ![100000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 180
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S128, .f32⟩
  | 5 => ⟨S128, .f32⟩
  | 6 => ⟨S3x128x64, .f32⟩
  | 7 => ⟨S64, .f32⟩
  | 8 => ⟨S64, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000, .f32⟩
  | 48 => ⟨S1600000, .f32⟩
  | 49 => ⟨S1600000, .f32⟩
  | 50 => ⟨S1x128x128, .f32⟩
  | 51 => ⟨S128x128, .f32⟩
  | 52 => ⟨S100000x128, .f32⟩
  | 53 => ⟨S1600000x1, .f32⟩
  | 54 => ⟨S_, .i32⟩
  | 55 => ⟨S1600000, .i32⟩
  | 56 => ⟨S1600000, .i1⟩
  | 57 => ⟨S_, .i32⟩
  | 58 => ⟨S1600000, .i32⟩
  | 59 => ⟨S1600000, .i32⟩
  | 60 => ⟨S1600000, .i32⟩
  | 61 => ⟨S1600000x1, .i32⟩
  | 62 => ⟨S1600000x128, .f32⟩
  | 63 => ⟨S1600000x128, .f32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S1x128x128, .f32⟩
  | 70 => ⟨S128x128, .f32⟩
  | 71 => ⟨S100000x128, .f32⟩
  | 72 => ⟨S100000x128, .f32⟩
  | 73 => ⟨S1600000x1, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S1600000x128, .f32⟩
  | 84 => ⟨S1600000x128, .f32⟩
  | 85 => ⟨S_, .f32⟩
  | 86 => ⟨S100000x128, .f32⟩
  | 87 => ⟨S1600000x1, .i32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .i1⟩
  | 103 => ⟨S1x128, .f32⟩
  | 104 => ⟨S100000x128, .f32⟩
  | 105 => ⟨S100000x128, .f32⟩
  | 106 => ⟨S100000x128, .f32⟩
  | 107 => ⟨S1x128x64, .f32⟩
  | 108 => ⟨S128x64, .f32⟩
  | 109 => ⟨S100000x64, .f32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x128, .f32⟩
  | 120 => ⟨S1600000x128, .f32⟩
  | 121 => ⟨S1600000x128, .f32⟩
  | 122 => ⟨S_, .f32⟩
  | 123 => ⟨S100000x128, .f32⟩
  | 124 => ⟨S1600000x1, .i32⟩
  | 125 => ⟨S100000x128, .f32⟩
  | 126 => ⟨S1x128x64, .f32⟩
  | 127 => ⟨S128x64, .f32⟩
  | _ => ⟨S100000x128, .f32⟩

abbrev hbmTy0_1 (i : Nat) : BufTy := match i % 128 with
  | 0 => ⟨S100000x64, .f32⟩
  | 1 => ⟨S100000x64, .f32⟩
  | 2 => ⟨S1600000x1, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x128, .f32⟩
  | 12 => ⟨S1600000x128, .f32⟩
  | 13 => ⟨S1600000x128, .f32⟩
  | 14 => ⟨S_, .f32⟩
  | 15 => ⟨S100000x128, .f32⟩
  | 16 => ⟨S1600000x1, .i32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S1x128x64, .f32⟩
  | 23 => ⟨S128x64, .f32⟩
  | 24 => ⟨S100000x64, .f32⟩
  | 25 => ⟨S100000x64, .f32⟩
  | 26 => ⟨S1x64, .f32⟩
  | 27 => ⟨S100000x64, .f32⟩
  | 28 => ⟨S100000x64, .f32⟩
  | 29 => ⟨S_, .f32⟩
  | 30 => ⟨S100000x64, .f32⟩
  | 31 => ⟨S100000x64, .i1⟩
  | 32 => ⟨S1x64, .f32⟩
  | 33 => ⟨S100000x64, .f32⟩
  | 34 => ⟨S100000x64, .f32⟩
  | 35 => ⟨S100000x64, .f32⟩
  | 36 => ⟨S_, .f32⟩
  | 37 => ⟨S64x64, .f32⟩
  | 38 => ⟨S100000x1, .i32⟩
  | 39 => ⟨S64x64, .f32⟩
  | 40 => ⟨S_, .f32⟩
  | 41 => ⟨S100000, .f32⟩
  | 42 => ⟨S_, .f32⟩
  | 43 => ⟨S64, .f32⟩
  | 44 => ⟨S100000x1, .i32⟩
  | 45 => ⟨S64, .f32⟩
  | 46 => ⟨S_, .f32⟩
  | 47 => ⟨S64, .f32⟩
  | 48 => ⟨S64, .f32⟩
  | 49 => ⟨S64x1, .f32⟩
  | 50 => ⟨S64x64, .f32⟩
  | 51 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_c_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_c_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_15 : Ref sig .tc := ⟨.hbm, 111, rfl⟩
abbrev main_v83 : Ref sig .tc := ⟨.hbm, 112, rfl⟩
abbrev main_v84 : Ref sig .tc := ⟨.hbm, 113, rfl⟩
abbrev main_c_16 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_cst_17 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_18 : Ref sig .tc := ⟨.hbm, 131, rfl⟩
abbrev main_v100 : Ref sig .tc := ⟨.hbm, 132, rfl⟩
abbrev main_v101 : Ref sig .tc := ⟨.hbm, 133, rfl⟩
abbrev main_c_19 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_20 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_22 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_cst_23 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_cst_24 : Ref sig .tc := ⟨.hbm, 168, rfl⟩
abbrev main_v131 : Ref sig .tc := ⟨.hbm, 169, rfl⟩
abbrev main_cst_25 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_cst_26 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128x128_S1x128x128_1_0_0 : S3x128x128.Slices ![1, 0, 0] S1x128x128
  slices_S3x128x128_S1x128x128_2_0_0 : S3x128x128.Slices ![2, 0, 0] S1x128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x64_S1x128x64_0_0_0 : S3x128x64.Slices ![0, 0, 0] S1x128x64
  shapeCasts_S1x128x64_S128x64 : S1x128x64.ShapeCasts S128x64
  slices_S3x128x64_S1x128x64_1_0_0 : S3x128x64.Slices ![1, 0, 0] S1x128x64
  slices_S3x128x64_S1x128x64_2_0_0 : S3x128x64.Slices ![2, 0, 0] S1x128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.KChain.lean ====
/-
  The host side of the idealized program, as pure functions of the arguments, for any float instance.

  From the edge list: the source ids (row 0) and target ids (row 1) of the 1,600,000 edges; the degree of a node
  (how many edges leave it), its inverse square root where the degree is positive and zero elsewhere; an edge's
  weight, minus the product of the two endpoints' normalised degrees. A negative id is read from the end (the
  gather's index is `id + 100000` there). One propagation step takes node features `h` to the array whose row
  `v` is the sum, over the edges into `v`, of the edge's weight times the row of `h` at the edge's source.
  The count of a graph is the number of nodes with that graph id, at least one, as a 64×64 array constant along a row.
  Then, level by level of the program's run, which buffer holds which of these.
-/
import proofs.«402110_j80401787781631_2_alg».proof.Proof.Gen.KernelIdeal.Frame
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]

/-- The edges' source ids. -/
def rowK (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- The edges' target ids. -/
def colK (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- A node's degree: one added per edge that leaves it. -/
def degK (ei : (⟨S2x1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant (F := F) S_ .f32 0x00000000#32))
    (broadcastInDim S1600000x1 ![0] bcast_S1600000_S1600000x1_0 (rowK (F := F) ei))
    (broadcastInDim S1600000 ![] bcast_S_S1600000 (constant (F := F) S_ .f32 0x3F800000#32))

/-- The normalised degree: `1/√max(deg, 1)` where the degree is positive, zero elsewhere. -/
def disK (ei : (⟨S2x1600000, .i32⟩ : BufTy).Contents (Elt F)) : (⟨S100000, .f32⟩ : BufTy).Contents (Elt F) :=
  select (cmpf .ogt (degK (F := F) ei) (broadcastInDim S100000 ![] bcast_S_S100000 (constant (F := F) S_ .f32 0x00000000#32)))
    (Host.rsqrt (maximumf (degK (F := F) ei) (broadcastInDim S100000 ![] bcast_S_S100000 (constant (F := F) S_ .f32 0x3F800000#32))))
    (broadcastInDim S100000 ![] bcast_S_S100000 (id (constant (F := F) S_ .f32 0x00000000#32)))

/-- An id read from the end when negative. -/
def normK (r : (⟨S1600000, .i32⟩ : BufTy).Contents (Elt F)) : (⟨S1600000, .i32⟩ : BufTy).Contents (Elt F) :=
  select (cmpi .slt r (broadcastInDim S1600000 ![] bcast_S_S1600000 (constantI S_ 32 0#32)))
    (addi r (broadcastInDim S1600000 ![] bcast_S_S1600000 (constantI S_ 32 100000#32))) r

/-- An edge's weight: minus the product of its endpoints' normalised degrees. -/
def wK (ei : (⟨S2x1600000, .i32⟩ : BufTy).Contents (Elt F)) : (⟨S1600000, .f32⟩ : BufTy).Contents (Elt F) :=
  Host.negf (mulf
    (Host.gather gather_S100000_S1600000x1_S1600000_n_0_n_n_0_1_1 (disK (F := F) ei)
      (broadcastInDim S1600000x1 ![0] bcast_S1600000_S1600000x1_0 (normK (F := F) (rowK (F := F) ei))))
    (Host.gather gather_S100000_S1600000x1_S1600000_n_0_n_n_0_1_1 (disK (F := F) ei)
      (broadcastInDim S1600000x1 ![0] bcast_S1600000_S1600000x1_0 (normK (F := F) (colK (F := F) ei)))))

/-- One propagation step over given edge weights, source ids and target ids. -/
def propK3 (wv : (⟨S1600000, .f32⟩ : BufTy).Contents (Elt F)) (row col : (⟨S1600000, .i32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 col)
    (mulf (broadcastInDim S1600000x128 ![0, 1] bcast_S1600000x1_S1600000x128_0_1 (broadcastInDim S1600000x1 ![0] bcast_S1600000_S1600000x1_0 wv))
      (Host.gather gather_S100000x128_S1600000x1_S1600000x128_1_0_n_n_0_1_1128 h
        (broadcastInDim S1600000x1 ![0] bcast_S1600000_S1600000x1_0 (normK (F := F) row))))

/-- One propagation step of the program's graph. -/
def propK (ei : (⟨S2x1600000, .i32⟩ : BufTy).Contents (Elt F)) (h : (⟨S100000x128, .f32⟩ : BufTy).Contents (Elt F)) : (⟨S100000x128, .f32⟩ : BufTy).Contents (Elt F) :=
  propK3 (wK (F := F) ei) (rowK (F := F) ei) (colK (F := F) ei) h

/-- The graphs' node counts, at least one, constant along each row of a 64×64 array. -/
def cntK (b : (⟨S100000, .i32⟩ : BufTy).Contents (Elt F)) : (⟨S64x64, .f32⟩ : BufTy).Contents (Elt F) :=
  broadcastInDim S64x64 ![0, 1] bcast_S64x1_S64x64_0_1 (broadcastInDim S64x1 ![0] bcast_S64_S64x1_0
    (maximumf
      (Host.scatterAdd scatter_S64_S100000x1_S100000_n_0_0_1
        (broadcastInDim S64 ![] bcast_S_S64 (constant (F := F) S_ .f32 0x00000000#32))
        (broadcastInDim S100000x1 ![0] bcast_S100000_S100000x1_0 b)
        (broadcastInDim S100000 ![] bcast_S_S100000 (constant (F := F) S_ .f32 0x3F800000#32)))
      (broadcastInDim S64 ![] bcast_S_S64 (constant (F := F) S_ .f32 0x3F800000#32))))

variable (m : (ℓ : Loc nD τ sig) → Buf (Elt F) ℓ) (ρ : Dev nD → PrngReg)

/-! ## The first region's entry: the three host stretches before it -/

theorem W3_v1 (c : Dev nD) : W3 m ρ c (Proc.devRef .tc main_v1) = rowK (F := F) (m ((c : Thread nD τ).loc main_arg1)) := by
  show StableHlo.after hostOps0_2 (StableHlo.after hostOps0_1 (StableHlo.after hostOps0 (W0 m ρ c))) (Proc.devRef .tc main_v1) = _
  after_results_simp <;> rfl

theorem W3_v3 (c : Dev nD) : W3 m ρ c (Proc.devRef .tc main_v3) = colK (F := F) (m ((c : Thread nD τ).loc main_arg1)) := by
  show StableHlo.after hostOps0_2 (StableHlo.after hostOps0_1 (StableHlo.after hostOps0 (W0 m ρ c))) (Proc.devRef .tc main_v3) = _
  after_results_simp <;> rfl

theorem W3_v29 (c : Dev nD) : W3 m ρ c (Proc.devRef .tc main_v29) = wK (F := F) (m ((c : Thread nD τ).loc main_arg1)) := by
  show StableHlo.after hostOps0_2 (StableHlo.after hostOps0_1 (StableHlo.after hostOps0 (W0 m ρ c))) (Proc.devRef .tc main_v29) = _
  after_results_simp <;> rfl

theorem W3_v42 (c : Dev nD) : W3 m ρ c (Proc.devRef .tc main_v42) =
    propK (F := F) (m ((c : Thread nD τ).loc main_arg1)) (m ((c : Thread nD τ).loc main_arg0)) := by
  show StableHlo.after hostOps0_2 (StableHlo.after hostOps0_1 (StableHlo.after hostOps0 (W0 m ρ c))) (Proc.devRef .tc main_v42) = _
  after_results_simp <;> rfl

theorem W3_v55 (c : Dev nD) : W3 m ρ c (Proc.devRef .tc main_v55) =
    propK (F := F) (m ((c : Thread nD τ).loc main_arg1)) (propK (F := F) (m ((c : Thread nD τ).loc main_arg1)) (m ((c : Thread nD τ).loc main_arg0))) := by
  show StableHlo.after hostOps0_2 (StableHlo.after hostOps0_1 (StableHlo.after hostOps0 (W0 m ρ c))) (Proc.devRef .tc main_v55) = _
  after_results_simp <;> rfl

theorem W3_v56 (c : Dev nD) : W3 m ρ c (Proc.devRef .tc main_v56) = shapeCast _ (m ((c : Thread nD τ).loc main_arg4)) shapeCasts_S128_S1x128 := by
  show StableHlo.after hostOps0_2 (StableHlo.after hostOps0_1 (StableHlo.after hostOps0 (W0 m ρ c))) (Proc.devRef .tc main_v56) = _
  after_results_simp <;> rfl
theorem W3_v57 (c : Dev nD) : W3 m ρ c (Proc.devRef .tc main_v57) = shapeCast _ (m ((c : Thread nD τ).loc main_arg5)) shapeCasts_S128_S1x128 := by
  show StableHlo.after hostOps0_2 (StableHlo.after hostOps0_1 (StableHlo.after hostOps0 (W0 m ρ c))) (Proc.devRef .tc main_v57) = _
  after_results_simp <;> rfl
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl
theorem W3_arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl
theorem W3_arg7 (c : Dev nD) : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl
theorem W3_arg8 (c : Dev nD) : W3 m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results_simp <;> rfl

/-! ## The second region's entry: the host stretch after the first region, over what that region left -/

theorem W5_v58 (c : Dev nD) : W5 m ρ c (Proc.devRef .tc main_v58) = W4 m ρ c (Proc.devRef .tc main_v58) := by
  show StableHlo.after hostOps1 (W4 m ρ c) (Proc.devRef .tc main_v58) = _
  after_results_simp <;> rfl
theorem W5_v71 (c : Dev nD) : W5 m ρ c (Proc.devRef .tc main_v71) = propK3 (F := F) (W4 m ρ c (Proc.devRef .tc main_v29)) (W4 m ρ c (Proc.devRef .tc main_v1)) (W4 m ρ c (Proc.devRef .tc main_v3)) (W4 m ρ c (Proc.devRef .tc main_v58)) := by
  show StableHlo.after hostOps1 (W4 m ρ c) (Proc.devRef .tc main_v71) = _
  after_results_simp <;> rfl
theorem W5_v84 (c : Dev nD) : W5 m ρ c (Proc.devRef .tc main_v84) = propK3 (F := F) (W4 m ρ c (Proc.devRef .tc main_v29)) (W4 m ρ c (Proc.devRef .tc main_v1)) (W4 m ρ c (Proc.devRef .tc main_v3)) (propK3 (F := F) (W4 m ρ c (Proc.devRef .tc main_v29)) (W4 m ρ c (Proc.devRef .tc main_v1)) (W4 m ρ c (Proc.devRef .tc main_v3)) (W4 m ρ c (Proc.devRef .tc main_v58))) := by
  show StableHlo.after hostOps1 (W4 m ρ c) (Proc.devRef .tc main_v84) = _
  after_results_simp <;> rfl
theorem W5_v85 (c : Dev nD) : W5 m ρ c (Proc.devRef .tc main_v85) = shapeCast _ (W4 m ρ c (Proc.devRef .tc main_arg7)) shapeCasts_S64_S1x64 := by
  show StableHlo.after hostOps1 (W4 m ρ c) (Proc.devRef .tc main_v85) = _
  after_results_simp <;> rfl
theorem W5_v86 (c : Dev nD) : W5 m ρ c (Proc.devRef .tc main_v86) = shapeCast _ (W4 m ρ c (Proc.devRef .tc main_arg8)) shapeCasts_S64_S1x64 := by
  show StableHlo.after hostOps1 (W4 m ρ c) (Proc.devRef .tc main_v86) = _
  after_results_simp <;> rfl
theorem W5_arg6 (c : Dev nD) : W5 m ρ c (Proc.devRef .tc main_arg6) = W4 m ρ c (Proc.devRef .tc main_arg6) := by
  show StableHlo.after hostOps1 (W4 m ρ c) (Proc.devRef .tc main_arg6) = _
  after_results_simp <;> rfl
theorem W5_arg2 (c : Dev nD) : W5 m ρ c (Proc.devRef .tc main_arg2) = W4 m ρ c (Proc.devRef .tc main_arg2) := by
  show StableHlo.after hostOps1 (W4 m ρ c) (Proc.devRef .tc main_arg2) = _
  after_results_simp <;> rfl

/-! ## The pooling region's entry, and the stretch after it -/

theorem W7_v87 (c : Dev nD) : W7 m ρ c (Proc.devRef .tc main_v87) = W6 m ρ c (Proc.devRef .tc main_v87) := by
  show StableHlo.after hostOps2 (W6 m ρ c) (Proc.devRef .tc main_v87) = _
  after_results_simp <;> rfl
theorem W7_v88 (c : Dev nD) : W7 m ρ c (Proc.devRef .tc main_v88) = shapeCast _ (W6 m ρ c (Proc.devRef .tc main_arg2)) shapeCasts_S100000_S100000x1 := by
  show StableHlo.after hostOps2 (W6 m ρ c) (Proc.devRef .tc main_v88) = _
  after_results_simp <;> rfl
theorem W7_arg2 (c : Dev nD) : W7 m ρ c (Proc.devRef .tc main_arg2) = W6 m ρ c (Proc.devRef .tc main_arg2) := by
  show StableHlo.after hostOps2 (W6 m ρ c) (Proc.devRef .tc main_arg2) = _
  after_results_simp <;> rfl
theorem W9_v98 (c : Dev nD) : W9 m ρ c (Proc.devRef .tc main_v98) = Host.divf (W8 m ρ c (Proc.devRef .tc main_v89)) (cntK (F := F) (W8 m ρ c (Proc.devRef .tc main_arg2))) := by
  show StableHlo.after hostOps3 (W8 m ρ c) (Proc.devRef .tc main_v98) = _
  after_results_simp <;> rfl

end Cert.KernelIdeal.Chain

end
-- ==== Proof.RefChain.lean ====
/-
  The reference's four propagation steps are ONE function of the node features: row `v` of the result is the sum, over
  the edges into `v`, of the edge's weight times the features' row at the edge's source (read from the end when the id
  is negative). The reference writes the same operations out at each of its four uses; here they are named once.
-/
import proofs.«402110_j80401787781631_2_alg».proof.Proof.ReadP

set_option maxRecDepth 16384

noncomputable section

namespace Cert.RefBridge

open Cert.ReferenceIdeal Cert.ReferenceIdeal.Read
open Idealize.ShloMosaic Idealize.ShloMosaic.TcCoe Idealize.SL.Sem

variable {F : FTy → Type} [FloatOps F]

/-- One propagation step of the reference's graph `x1` applied to node features `h`. -/
def propR (x1 : (⟨S2x1600000, .i32⟩ : BufTy).Contents (Elt F)) (h : (⟨S100000x128, .f32⟩ : BufTy).Contents (Elt F)) : (⟨S100000x128, .f32⟩ : BufTy).Contents (Elt F) :=
  Host.scatterAdd scatter_S100000x128_S1600000x1_S1600000x128_1_0_0_1 (val_main_v43 (F := F)) (val_main_v44 (F := F) x1)
    (mulf (val_main_v41 (F := F) x1) (Host.gather gather_S100000x128_S1600000x1_S1600000x128_1_0_n_n_0_1_1128 h (val_main_v39 (F := F) x1)))

theorem v45_prop (x0 : (⟨S100000x128, .f32⟩ : BufTy).Contents (Elt F)) (x1 : (⟨S2x1600000, .i32⟩ : BufTy).Contents (Elt F)) :
    val_main_v45 (F := F) x0 x1 = propR x1 x0 := rfl

theorem v62_prop (x0 : (⟨S100000x128, .f32⟩ : BufTy).Contents (Elt F)) (x1 : (⟨S2x1600000, .i32⟩ : BufTy).Contents (Elt F)) :
    val_main_v62 (F := F) x0 x1 = propR x1 (val_main_v45 (F := F) x0 x1) := rfl

theorem v94_prop (x0 : (⟨S100000x128, .f32⟩ : BufTy).Contents (Elt F)) (x1 : (⟨S2x1600000, .i32⟩ : BufTy).Contents (Elt F)) (x3 : (⟨S3x128x128, .f32⟩ : BufTy).Contents (Elt F)) (x4 x5 : (⟨S128, .f32⟩ : BufTy).Contents (Elt F)) :
    val_main_v94 (F := F) x0 x1 x3 x4 x5 = propR x1 (val_main_v78 (F := F) x0 x1 x3 x4 x5) := rfl

theorem v111_prop (x0 : (⟨S100000x128, .f32⟩ : BufTy).Contents (Elt F)) (x1 : (⟨S2x1600000, .i32⟩ : BufTy).Contents (Elt F)) (x3 : (⟨S3x128x128, .f32⟩ : BufTy).Contents (Elt F)) (x4 x5 : (⟨S128, .f32⟩ : BufTy).Contents (Elt F)) :
    val_main_v111 (F := F) x0 x1 x3 x4 x5 = propR x1 (val_main_v94 (F := F) x0 x1 x3 x4 x5) := rfl

end Cert.RefBridge

end
-- ==== Proof.Bridge.lean ====
/-
  The two programs' host sides are the same functions: the reference's propagation step and the idealized program's are
  one term (the same scatter, gather and elementwise operations over the same edge weights and ids), and so are their
  graph counts. For any float instance, by unfolding the names on both sides.
-/
import proofs.«402110_j80401787781631_2_alg».proof.Proof.KChain
import proofs.«402110_j80401787781631_2_alg».proof.Proof.RefChain

set_option maxRecDepth 16384

noncomputable section

namespace Cert.Bridge

open Idealize.ShloMosaic Idealize.ShloMosaic.TcCoe Idealize.SL.Sem

variable {F : FTy → Type} [FloatOps F]

/-- The reference's propagation step is the idealized program's. -/
theorem propR_eq (x1 : (⟨Cert.KernelIdeal.S2x1600000, .i32⟩ : BufTy).Contents (Elt F)) (h : (⟨Cert.KernelIdeal.S100000x128, .f32⟩ : BufTy).Contents (Elt F)) :
    Cert.RefBridge.propR (F := F) x1 h = Cert.KernelIdeal.Chain.propK (F := F) x1 h := rfl

/-- The reference's graph counts are the idealized program's. -/
theorem cnt_eq (x2 : (⟨Cert.KernelIdeal.S100000, .i32⟩ : BufTy).Contents (Elt F)) :
    Cert.ReferenceIdeal.Read.val_main_v138 (F := F) x2 = Cert.KernelIdeal.Chain.cntK (F := F) x2 := rfl

/-- The reference's last operation divides the per-graph sums by the counts. -/
theorem v139_div (x0 : (⟨Cert.ReferenceIdeal.S100000x128, .f32⟩ : BufTy).Contents (Elt F)) (x1 : (⟨Cert.ReferenceIdeal.S2x1600000, .i32⟩ : BufTy).Contents (Elt F))
    (x2 : (⟨Cert.ReferenceIdeal.S100000, .i32⟩ : BufTy).Contents (Elt F)) (x3 : (⟨Cert.ReferenceIdeal.S3x128x128, .f32⟩ : BufTy).Contents (Elt F))
    (x4 x5 : (⟨Cert.ReferenceIdeal.S128, .f32⟩ : BufTy).Contents (Elt F)) (x6 : (⟨Cert.ReferenceIdeal.S3x128x64, .f32⟩ : BufTy).Contents (Elt F))
    (x7 x8 : (⟨Cert.ReferenceIdeal.S64, .f32⟩ : BufTy).Contents (Elt F)) :
    Cert.ReferenceIdeal.Read.val_main_v139 (F := F) x0 x1 x2 x3 x4 x5 x6 x7 x8 =
      Host.divf (Cert.ReferenceIdeal.Read.val_main_v130 (F := F) x0 x1 x2 x3 x4 x5 x6 x7 x8) (Cert.KernelIdeal.Chain.cntK (F := F) x2) := rfl

end Cert.Bridge

end
-- ==== Proof.ChebSpec.lean ====
/-
  What both programs compute, index by index, over the extended reals.

  One Chebyshev layer: with the node features `x` (Tx0), their first propagation `tx1` and the propagation `p` of
  `tx1`, the third Chebyshev term is `2·p − x`; row `r`, column `j` of the layer's pre-activation is
      Σ_k x[r,k]·W[0,k,j] + Σ_k tx1[r,k]·W[1,k,j] + Σ_k (2·p[r,k] − x[r,k])·W[2,k,j] + b[j]
  (the three products added in this order, then the bias), and the layer's result is the parametric rectifier
  `s ≥ 0 ? s : a[j]·s` of it. The float words `2.0` and `0.0` stay the words both programs print.

  The pooling: row `g`, column `c` of the per-graph sums is the sum over all nodes `n` whose graph id is `g`
  (read signed) of `h[n,c]`; a node whose id is outside `[0, 64)` adds to no row.
-/
import Idealize.ShloMosaic.PureOps.Ideal
import Idealize.ShloMosaic.Lib.ValueIdx

noncomputable section

open scoped BigOperators

namespace Cheb

open Idealize.ShloMosaic Idealize.ShloMosaic.ValueIdx

abbrev SN128 : Shape := ⟨2, ![100000, 128]⟩
abbrev SN64 : Shape := ⟨2, ![100000, 64]⟩
abbrev SW1 : Shape := ⟨3, ![3, 128, 128]⟩
abbrev SW2 : Shape := ⟨3, ![3, 128, 64]⟩
abbrev SB128 : Shape := ⟨2, ![1, 128]⟩
abbrev SB64 : Shape := ⟨2, ![1, 64]⟩
abbrev SP : Shape := ⟨2, ![64, 64]⟩
abbrev SBt : Shape := ⟨2, ![100000, 1]⟩

/-- The float word `2.0` at the ideal instance. -/
abbrev two : EReal := Ideal.ofBits .f32 0x40000000#32
/-- The float word `0.0` at the ideal instance. -/
abbrev zeroW : EReal := Ideal.ofBits .f32 0x00000000#32

/-- The parametric rectifier on one element: `s` where `s ≥ 0`, else `a·s`. -/
def prelu (s a : EReal) : EReal :=
  Scalar.select (FloatOps.cmpf (F := Ideal) (φ := .f32) .oge s zeroW) s (a * s)

/-- Row `r`, column `j` of the first layer's pre-activation. -/
def pre1 (x tx1 p : SN128.Idx → EReal) (W : SW1.Idx → EReal) (b : SB128.Idx → EReal) (r : Fin 100000) (j : Fin 128) : EReal :=
  (((∑ k : Fin 128, x (ix2 r k) * W (ix3 (0 : Fin 3) k j)) + (∑ k : Fin 128, tx1 (ix2 r k) * W (ix3 (1 : Fin 3) k j)))
    + (∑ k : Fin 128, (two * p (ix2 r k) - x (ix2 r k)) * W (ix3 (2 : Fin 3) k j))) + b (ix2 (0 : Fin 1) j)

/-- The first layer: 128 features in, 128 out. -/
def layer1 (x tx1 p : SN128.Idx → EReal) (W : SW1.Idx → EReal) (b a : SB128.Idx → EReal) : SN128.Idx → EReal :=
  fun i => prelu (pre1 x tx1 p W b (i 0) (i 1)) (a (ix2 (0 : Fin 1) (i 1)))

/-- Row `r`, column `j` of the second layer's pre-activation. -/
def pre2 (x tx1 p : SN128.Idx → EReal) (W : SW2.Idx → EReal) (b : SB64.Idx → EReal) (r : Fin 100000) (j : Fin 64) : EReal :=
  (((∑ k : Fin 128, x (ix2 r k) * W (ix3 (0 : Fin 3) k j)) + (∑ k : Fin 128, tx1 (ix2 r k) * W (ix3 (1 : Fin 3) k j)))
    + (∑ k : Fin 128, (two * p (ix2 r k) - x (ix2 r k)) * W (ix3 (2 : Fin 3) k j))) + b (ix2 (0 : Fin 1) j)

/-- The second layer: 128 features in, 64 out. -/
def layer2 (x tx1 p : SN128.Idx → EReal) (W : SW2.Idx → EReal) (b a : SB64.Idx → EReal) : SN64.Idx → EReal :=
  fun i => prelu (pre2 x tx1 p W b (i 0) (i 1)) (a (ix2 (0 : Fin 1) (i 1)))

/-- The per-graph sums: row `g` adds up the rows of `h` whose graph id, read signed, is `g`. -/
def pool (h : SN64.Idx → EReal) (batch : SBt.Idx → BitVec 32) : SP.Idx → EReal :=
  fun i => ∑ n : Fin 100000, if (batch (ix2 n (0 : Fin 1))).toInt = ((i 0).val : Int) then h (ix2 n (i 1)) else 0

end Cheb

end
-- ==== Proof.Layer1Value.lean ====
import proofs.«402110_j80401787781631_2_alg».proof.Proof.Gen.KernelIdeal.Frame
import proofs.«402110_j80401787781631_2_alg».proof.Proof.ChebSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.L1
open Cert.KernelIdeal Cert.KernelIdeal.Gen

variable (V : (c : Dev nD) → (b : Ref sig .tc) → Buf (Elt Ideal) ((c : Thread nD τ).loc b))

open scoped BigOperators

/-- The zero offsets of a whole-block access, however spelt. -/
theorem zero_offsets : (![0, 0] : Fin 2 → Nat) = fun _ => 0 := funext fun a => by fin_cases a <;> rfl

/-- The three loads of the weight block read its three 128×128 slices. -/
theorem ldW0 (x3 : Vec Ideal S3x128x128 .f32) (k j : Fin 128) :
    View.ld x3 r0_1 (ix3 (0 : Fin 1) k j) = x3 (ix3 (0 : Fin 3) k j) := by
  show x3 _ = x3 _
  refine congrArg x3 (funext fun a => Fin.ext ?_)
  match a with
  | ⟨0, _⟩ => rfl
  | ⟨1, _⟩ => show 0 + 1 * k.val = k.val; omega
  | ⟨2, _⟩ => show 0 + 1 * j.val = j.val; omega

/-- The second load reads the weights' slice 1. -/
theorem ldW1 (x3 : Vec Ideal S3x128x128 .f32) (k j : Fin 128) :
    View.ld x3 r0_2 (ix3 (0 : Fin 1) k j) = x3 (ix3 (1 : Fin 3) k j) := by
  show x3 _ = x3 _
  refine congrArg x3 (funext fun a => Fin.ext ?_)
  match a with
  | ⟨0, _⟩ => rfl
  | ⟨1, _⟩ => show 0 + 1 * k.val = k.val; omega
  | ⟨2, _⟩ => show 0 + 1 * j.val = j.val; omega

/-- The third load reads the weights' slice 2. -/
theorem ldW2 (x3 : Vec Ideal S3x128x128 .f32) (k j : Fin 128) :
    View.ld x3 r0_3 (ix3 (0 : Fin 1) k j) = x3 (ix3 (2 : Fin 3) k j) := by
  show x3 _ = x3 _
  refine congrArg x3 (funext fun a => Fin.ext ?_)
  match a with
  | ⟨0, _⟩ => rfl
  | ⟨1, _⟩ => show 0 + 1 * k.val = k.val; omega
  | ⟨2, _⟩ => show 0 + 1 * j.val = j.val; omega

/-- The block product's operand indices, axis by axis: the left operand is read at (row, contracted index), the right at
    (contracted index, column). -/
theorem lhs_mm_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block product into the zero accumulator, at row `p` and column `q`: the sum over the contracted axis. -/
theorem block_product_apply (lhs : FVec Ideal S5000x128 .bf16) (rhs : FVec Ideal S128x128 .bf16) (p : Fin 5000) (q : Fin 128) :
    matmul dot_S5000x128_S128x128_S5000x128_1_0_0_1_n_n none lhs rhs (constant (F := Ideal) S5000x128 .f32 0x00000000#32) (ix2 p q)
      = ∑ k : Fin 128, lhs (ix2 p k) * rhs (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- The pre-activation payload at row `p`, column `q` of the block, the three weight slices named by what they hold. -/
theorem pre_activation_apply (v0 v1 v7 : Vec Ideal S5000x128 .f32) (v11 v14 v17 : Vec Ideal S1x128x128 .f32) (v25 : Vec Ideal S1x128 .f32)
    (W0 W1 W2 : Fin 128 → Fin 128 → EReal)
    (h11 : ∀ k j, v11 (ix3 (0 : Fin 1) k j) = W0 k j) (h14 : ∀ k j, v14 (ix3 (0 : Fin 1) k j) = W1 k j)
    (h17 : ∀ k j, v17 (ix3 (0 : Fin 1) k j) = W2 k j) (p : Fin 5000) (q : Fin 128) :
    k0_pay2 v0 v1 v7 v11 v14 v17 v25 (ix2 p q)
      = (((∑ k : Fin 128, v0 (ix2 p k) * W0 k q) + (∑ k : Fin 128, v7 (ix2 p k) * W1 k q))
          + (∑ k : Fin 128, (Cheb.two * v1 (ix2 p k) - v0 (ix2 p k)) * W2 k q)) + v25 (ix2 (0 : Fin 1) q) := by
  unfold k0_pay2
  rw [addf_apply, addf_apply, addf_apply, block_product_apply, block_product_apply, block_product_apply, broadcastTo_1b_ab_apply]
  simp only [shapeCast_self, truncf_apply, shapeCast_1ab_ab_apply, subf_apply, mulf_apply, broadcast_apply, h11, h14, h17]
  rfl

/-- What the body leaves in the output block, at row `p` and column `q`: the rectifier of the pre-activation. -/
theorem out_block_apply (x0 x1 x2 : Vec Ideal S5000x128 .f32) (x3 : Vec Ideal S3x128x128 .f32) (x4 x5 : Vec Ideal S1x128 .f32)
    (p : Fin 5000) (q : Fin 128) :
    out0_6 x0 x1 x2 x3 x4 x5 (ix2 p q)
      = Cheb.prelu ((((∑ k : Fin 128, x0 (ix2 p k) * x3 (ix3 (0 : Fin 3) k q)) + (∑ k : Fin 128, x1 (ix2 p k) * x3 (ix3 (1 : Fin 3) k q)))
          + (∑ k : Fin 128, (Cheb.two * x2 (ix2 p k) - x0 (ix2 p k)) * x3 (ix3 (2 : Fin 3) k q))) + x4 (ix2 (0 : Fin 1) q))
          (x5 (ix2 (0 : Fin 1) q)) := by
  unfold out0_6
  rw [View.canon_unit_zero zero_offsets]
  rw [View.ld_unit_zero (S := S5000x128) zero_offsets _ x0, View.ld_unit_zero (S := S5000x128) zero_offsets _ x1,
    View.ld_unit_zero (S := S5000x128) zero_offsets _ x2, View.ld_unit_zero (S := S1x128) zero_offsets _ x4,
    View.ld_unit_zero (S := S1x128) zero_offsets _ x5]
  unfold k0_pay1 k0_pay3 k0_pay4
  rw [select_apply, cmpf_apply, mulf_apply, broadcast_apply, broadcastTo_1b_ab_apply, shapeCast_self,
    pre_activation_apply x0 x2 x1 _ _ _ x4 (fun k j => x3 (ix3 (0 : Fin 3) k j)) (fun k j => x3 (ix3 (1 : Fin 3) k j))
      (fun k j => x3 (ix3 (2 : Fin 3) k j)) (ldW0 x3) (ldW1 x3) (ldW2 x3) p q]
  rfl

/-- The body's block at `(p, q)` is the layer's value at `(r, q)` once each input block's row `p` is its array's row `r`
    and the whole-array blocks are their arrays. -/
theorem block_entry_eq (x tx1 pp : Cheb.SN128.Idx → EReal) (W : Cheb.SW1.Idx → EReal) (b a : Cheb.SB128.Idx → EReal)
    (x0 x1 x2 : Vec Ideal S5000x128 .f32) (x3 : Vec Ideal S3x128x128 .f32) (x4 x5 : Vec Ideal S1x128 .f32)
    (p : Fin 5000) (q : Fin 128) (r : Fin 100000)
    (h0 : ∀ k : Fin 128, x0 (ix2 p k) = x (ix2 r k))
    (h1 : ∀ k : Fin 128, x1 (ix2 p k) = tx1 (ix2 r k))
    (h2 : ∀ k : Fin 128, x2 (ix2 p k) = pp (ix2 r k))
    (h3 : ∀ (s : Fin 3) (k j : Fin 128), x3 (ix3 s k j) = W (ix3 s k j))
    (h4 : ∀ j : Fin 128, x4 (ix2 (0 : Fin 1) j) = b (ix2 (0 : Fin 1) j))
    (h5 : ∀ j : Fin 128, x5 (ix2 (0 : Fin 1) j) = a (ix2 (0 : Fin 1) j)) :
    out0_6 x0 x1 x2 x3 x4 x5 (ix2 p q) = Cheb.layer1 x tx1 pp W b a (ix2 r q) := by
  rw [out_block_apply]
  simp only [h0, h1, h2, h3, h4, h5]
  rfl

/-- The printed index maps, decided over the grid: the row windows and the output take block `t` of rows at point `t`,
    the weights, the bias and the slope are whole arrays at block zero. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The input blocks and the arrays they are read off, at their literal types. -/
abbrev xblk (c : Dev nD) (t : Fin cfg0.N) : Vec Ideal S5000x128 .f32 := iblk0 V c 0 t
abbrev tblk (c : Dev nD) (t : Fin cfg0.N) : Vec Ideal S5000x128 .f32 := iblk0 V c 1 t
abbrev pblk (c : Dev nD) (t : Fin cfg0.N) : Vec Ideal S5000x128 .f32 := iblk0 V c 2 t
abbrev wblk (c : Dev nD) (t : Fin cfg0.N) : Vec Ideal S3x128x128 .f32 := iblk0 V c 3 t
abbrev bblk (c : Dev nD) (t : Fin cfg0.N) : Vec Ideal S1x128 .f32 := iblk0 V c 4 t
abbrev ablk (c : Dev nD) (t : Fin cfg0.N) : Vec Ideal S1x128 .f32 := iblk0 V c 5 t
abbrev xarr (c : Dev nD) : Cheb.SN128.Idx → EReal := V c main_arg0
abbrev tarr (c : Dev nD) : Cheb.SN128.Idx → EReal := V c main_v42
abbrev parr (c : Dev nD) : Cheb.SN128.Idx → EReal := V c main_v55
abbrev warr (c : Dev nD) : Cheb.SW1.Idx → EReal := V c main_arg3
abbrev barr (c : Dev nD) : Cheb.SB128.Idx → EReal := V c main_v56
abbrev aarr (c : Dev nD) : Cheb.SB128.Idx → EReal := V c main_v57

/-- Row `p` of the feature block at point `t` is row `5000·t + p` of the feature array. -/
theorem xblk_apply (c : Dev nD) (t : Fin cfg0.N) (p : Fin 5000) (k : Fin 128) (r : Fin 100000)
    (hr : r.val = 5000 * t.val + p.val) : xblk V c t (ix2 p k) = xarr V c (ix2 r k) := by
  obtain ⟨e0, e1, -⟩ := block_indices t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Row `p` of the first propagation's block at point `t` is row `5000·t + p` of its array. -/
theorem tblk_apply (c : Dev nD) (t : Fin cfg0.N) (p : Fin 5000) (k : Fin 128) (r : Fin 100000)
    (hr : r.val = 5000 * t.val + p.val) : tblk V c t (ix2 p k) = tarr V c (ix2 r k) := by
  obtain ⟨-, -, e0, e1, -⟩ := block_indices t
  show V c main_v42 (((cfg0.win 1).blk t).view.emb (ix2 p k)) = V c main_v42 (ix2 r k)
  refine congrArg (V c main_v42) (funext fun a => Fin.ext ?_)
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Row `p` of the second propagation's block at point `t` is row `5000·t + p` of its array. -/
theorem pblk_apply (c : Dev nD) (t : Fin cfg0.N) (p : Fin 5000) (k : Fin 128) (r : Fin 100000)
    (hr : r.val = 5000 * t.val + p.val) : pblk V c t (ix2 p k) = parr V c (ix2 r k) := by
  obtain ⟨-, -, -, -, e0, e1, -⟩ := block_indices t
  show V c main_v55 (((cfg0.win 2).blk t).view.emb (ix2 p k)) = V c main_v55 (ix2 r k)
  refine congrArg (V c main_v55) (funext fun a => Fin.ext ?_)
  match a with
  | ⟨0, _⟩ => show win0_2.index t (0 : Fin 2) * 5000 + 1 * p.val = r.val; rw [e0, hr]; omega
  | ⟨1, _⟩ => show win0_2.index t (1 : Fin 2) * 128 + 1 * k.val = k.val; rw [e1]; omega

/-- The weights' block is the whole weight array at every point. -/
theorem wblk_apply (c : Dev nD) (t : Fin cfg0.N) (s : Fin 3) (k j : Fin 128) :
    wblk V c t (ix3 s k j) = warr V c (ix3 s k j) := by
  obtain ⟨-, -, -, -, -, -, e0, e1, e2, -⟩ := block_indices t
  show V c main_arg3 (((cfg0.win 3).blk t).view.emb (ix3 s k j)) = V c main_arg3 (ix3 s k j)
  refine congrArg (V c main_arg3) (funext fun a => Fin.ext ?_)
  match a with
  | ⟨0, _⟩ => show win0_3.index t (0 : Fin 3) * 3 + 1 * s.val = s.val; rw [e0]; omega
  | ⟨1, _⟩ => show win0_3.index t (1 : Fin 3) * 128 + 1 * k.val = k.val; rw [e1]; omega
  | ⟨2, _⟩ => show win0_3.index t (2 : Fin 3) * 128 + 1 * j.val = j.val; rw [e2]; omega

/-- The bias block is the whole bias row at every point. -/
theorem bblk_apply (c : Dev nD) (t : Fin cfg0.N) (j : Fin 128) :
    bblk V c t (ix2 (0 : Fin 1) j) = barr V c (ix2 (0 : Fin 1) j) := by
  obtain ⟨-, -, -, -, -, -, -, -, -, e0, e1, -⟩ := block_indices t
  show V c main_v56 (((cfg0.win 4).blk t).view.emb (ix2 (0 : Fin 1) j)) = V c main_v56 (ix2 (0 : Fin 1) j)
  refine congrArg (V c main_v56) (funext fun a => Fin.ext ?_)
  match a with
  | ⟨0, _⟩ => show win0_4.index t (0 : Fin 2) * 1 + 1 * 0 = 0; rw [e0]
  | ⟨1, _⟩ => show win0_4.index t (1 : Fin 2) * 128 + 1 * j.val = j.val; rw [e1]; omega

/-- The slope block is the whole slope row at every point. -/
theorem ablk_apply (c : Dev nD) (t : Fin cfg0.N) (j : Fin 128) :
    ablk V c t (ix2 (0 : Fin 1) j) = aarr V c (ix2 (0 : Fin 1) j) := by
  obtain ⟨-, -, -, -, -, -, -, -, -, -, -, e0, e1, -⟩ := block_indices t
  show V c main_v57 (((cfg0.win 5).blk t).view.emb (ix2 (0 : Fin 1) j)) = V c main_v57 (ix2 (0 : Fin 1) j)
  refine congrArg (V c main_v57) (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

/-- What point `t` writes back is block `t` of the layer's value of the arrays the region found. -/
theorem written_back_eq (c : Dev nD) (t : Fin cfg0.N) :
    (dat0 (F := Ideal) V c).flushed 6 t
      = ((cfg0.win 6).blk t).view.read (Elt Ideal)
          (Cheb.layer1 (xarr V c) (tarr V c) (parr V c) (warr V c) (barr V c) (aarr V c)) := by
  show (cfg0.win 6).cut (grid0.coords t) ((dat0 V c).after 6 t) = _
  rw [after0_6]
  funext j
  have hj0 : (j 0).val < 5000 := (j 0).isLt
  have hj1 : (j 1).val < 128 := (j 1).isLt
  have ht : t.val < 20 := by have h := t.isLt; have hN : cfg0.N = 20 := N_0; omega
  obtain ⟨-, -, -, -, -, -, -, -, -, -, -, -, -, e0, e1⟩ := block_indices t
  have ey : win0_6.xinj (grid0.coords t) j = ix2 (⟨(j 0).val, hj0⟩ : Fin 5000) (⟨(j 1).val, hj1⟩ : Fin 128) :=
    funext fun a => by match a with | ⟨0, _⟩ => rfl | ⟨1, _⟩ => rfl
  have ei : ((cfg0.win 6).blk t).view.emb j
      = ix2 (⟨5000 * t.val + (j 0).val, by omega⟩ : Fin 100000) (⟨(j 1).val, hj1⟩ : Fin 128) :=
    funext fun a => Fin.ext (by
      match a with
      | ⟨0, _⟩ => show win0_6.index t (0 : Fin 2) * 5000 + 1 * (j 0).val = 5000 * t.val + (j 0).val; rw [e0]; omega
      | ⟨1, _⟩ => show win0_6.index t (1 : Fin 2) * 128 + 1 * (j 1).val = (j 1).val; rw [e1]; omega)
  show out0_6 (xblk V c t) (tblk V c t) (pblk V c t) (wblk V c t) (bblk V c t) (ablk V c t) (win0_6.xinj (grid0.coords t) j)
      = Cheb.layer1 (xarr V c) (tarr V c) (parr V c) (warr V c) (barr V c) (aarr V c) (((cfg0.win 6).blk t).view.emb j)
  rw [ey, ei]
  exact block_entry_eq (xarr V c) (tarr V c) (parr V c) (warr V c) (barr V c) (aarr V c)
    (xblk V c t) (tblk V c t) (pblk V c t) (wblk V c t) (bblk V c t) (ablk V c t) _ _ _
    (fun k => xblk_apply V c t _ k _ rfl) (fun k => tblk_apply V c t _ k _ rfl) (fun k => pblk_apply V c t _ k _ rfl)
    (fun s k j => wblk_apply V c t s k j) (fun j => bblk_apply V c t j) (fun j => ablk_apply V c t j)

/-- An index of the result array is in point `t`'s block iff each coordinate is in the block's range on its axis. -/
theorem mem_row_block (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v58).slice (win0_6.rect t)).set ↔ _
  rw [View.set_slice_whole, Rect.mem_set_unit]
  exact Iff.rfl

/-- After the first layer's region the result array holds the layer's value of the arrays the region found. -/
theorem layer1_arr (c : Dev nD) :
    (dat0 (F := Ideal) V c).arrAt 6 cfg0.N =
      Cheb.layer1 (V c main_arg0) (V c main_v42) (V c main_v55) (V c main_arg3) (V c main_v56) (V c main_v57) := by
  refine (dat0 (F := Ideal) V c).arrAt_eq_of_cover 6 _ (fun t _ => written_back_eq V c t) (fun i => ?_)
  have hi0 : (i 0).val < 100000 := (i 0).isLt
  have hi1 : (i 1).val < 128 := (i 1).isLt
  have hN : cfg0.N = 20 := N_0
  obtain ⟨-, -, -, -, -, -, -, -, -, -, -, -, -, e0, e1⟩ := block_indices ⟨(i 0).val / 5000, by rw [hN]; omega⟩
  refine ⟨⟨(i 0).val / 5000, by rw [hN]; omega⟩, flush0_6 _, ?_⟩
  rw [mem_row_block]
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, _⟩ (1 : Fin 2) * 128 ≤ (i 1).val ∧ (i 1).val < win0_6.index ⟨(i 0).val / 5000, _⟩ (1 : Fin 2) * 128 + 128
    rw [e1]
    omega

end Cert.KernelIdeal.L1

end
-- ==== Proof.Layer2Value.lean ====
import proofs.«402110_j80401787781631_2_alg».proof.Proof.Gen.KernelIdeal.Frame
import proofs.«402110_j80401787781631_2_alg».proof.Proof.ChebSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.L2
open Cert.KernelIdeal Cert.KernelIdeal.Gen

variable (V : (c : Dev nD) → (b : Ref sig .tc) → Buf (Elt Ideal) ((c : Thread nD τ).loc b))

/-!
The grid has 20 points; point t works on rows 5000·t … 5000·t + 4999. At a point the body reads the three feature blocks
x, tx1, p, the three 128×64 slices of the weights, the bias row and the slope row, forms 2·p − x, takes the three block
products into a zero accumulator, adds them left to right, adds the bias row and applies the parametric rectifier. Below:
the body's result block at an index (a sum over the 128 features per product), each window's block as rows of its array,
what a point writes back as a block of the layer's value, and the twenty blocks covering the result array.
-/

/-- The zero offsets of a rank-2 rectangle, as the constant function. -/
theorem hz2 : (![0, 0] : Fin 2 → Nat) = fun _ => 0 := funext fun a => by fin_cases a <;> rfl

/-- The left operand's row coordinate is the output's row. -/
theorem lhs_mm_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted coordinate. -/
theorem lhs_mm_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contracted coordinate. -/
theorem rhs_mm_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output's column. -/
theorem rhs_mm_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block product into the zero accumulator, read at row p, column q: the plain sum over the 128 contracted
    coordinates of the products of the operands' entries. -/
theorem mm_apply (a : FVec Ideal S5000x128 .bf16) (b : FVec Ideal S128x64 .bf16) (p : Fin 5000) (q : Fin 64) :
    matmul dot_S5000x128_S128x64_S5000x64_1_0_0_1_n_n none a b (constant S5000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- One 128×64 slice of the weights: the block's leading unit axis dropped. -/
theorem wslice_apply (v : FVec Ideal S1x128x64 .f32) (k : Fin 128) (q : Fin 64) :
    (truncf (F := Ideal) .bf16 (shapeCast S128x64 v shapeCasts_S1x128x64_S128x64) bitsLt_bf16_f32 : FVec Ideal S128x64 .bf16) (ix2 k q)
      = v (ix3 (0 : Fin 1) k q) :=
  shapeCast_1ab_ab_apply v shapeCasts_S1x128x64_S128x64 k q

/-- A block of node features passed through the identity cast and the (ideal, hence identity) narrowing. -/
theorem feat_apply (v : FVec Ideal S5000x128 .f32) (p : Fin 5000) (k : Fin 128) :
    (truncf (F := Ideal) .bf16 (shapeCast S5000x128 v shapeCasts_S5000x128_S5000x128) bitsLt_bf16_f32 : FVec Ideal S5000x128 .bf16) (ix2 p k)
      = v (ix2 p k) :=
  congrFun (shapeCast_self v shapeCasts_S5000x128_S5000x128) (ix2 p k)

/-- The pre-activation payload at row p, column q of the block: the three products summed over the 128 features, added
    left to right, plus the bias row. -/
theorem pay2_apply (v0 v2 v8 : Vec Ideal S5000x128 .f32) (v12 v15 v18 : Vec Ideal S1x128x64 .f32) (v26 : Vec Ideal S1x64 .f32)
    (p : Fin 5000) (q : Fin 64) :
    k1_pay2 (F := Ideal) v0 v2 v8 v12 v15 v18 v26 (ix2 p q) =
      (((∑ k : Fin 128, v0 (ix2 p k) * v12 (ix3 (0 : Fin 1) k q)) + (∑ k : Fin 128, v8 (ix2 p k) * v15 (ix3 (0 : Fin 1) k q)))
        + (∑ k : Fin 128, (Cheb.two * v2 (ix2 p k) - v0 (ix2 p k)) * v18 (ix3 (0 : Fin 1) k q))) + v26 (ix2 (0 : Fin 1) q) := by
  unfold k1_pay2
  refine (addf_apply _ _ _).trans (congrArg₂ (· + ·) ((addf_apply _ _ _).trans (congrArg₂ (· + ·)
    ((addf_apply _ _ _).trans (congrArg₂ (· + ·) ?_ ?_)) ?_)) ?_)
  · exact (mm_apply _ _ p q).trans (Finset.sum_congr rfl fun k _ => congrArg₂ (· * ·) (feat_apply v0 p k) (wslice_apply v12 k q))
  · exact (mm_apply _ _ p q).trans (Finset.sum_congr rfl fun k _ => congrArg₂ (· * ·) (feat_apply v8 p k) (wslice_apply v15 k q))
  · refine (mm_apply _ _ p q).trans (Finset.sum_congr rfl fun k _ => congrArg₂ (· * ·) ?_ (wslice_apply v18 k q))
    exact congrArg₂ (· - ·) (congrArg (Cheb.two * ·) (congrFun (shapeCast_self v2 shapeCasts_S5000x128_S5000x128) (ix2 p k)))
      (congrFun (shapeCast_self v0 shapeCasts_S5000x128_S5000x128) (ix2 p k))
  · exact (broadcastTo_1b_ab_apply _ broadcasts_S1x64_S5000x64 p q).trans (congrFun (shapeCast_self v26 shapeCasts_S1x64_S1x64) (ix2 (0 : Fin 1) q))

/-- The three loads of the weights read slice 0, 1, 2 of the 3×128×64 array. -/
theorem w0_apply (x3 : Vec Ideal S3x128x64 .f32) (k : Fin 128) (q : Fin 64) :
    View.ld x3 r1_1 (ix3 (0 : Fin 1) k q) = x3 (ix3 (0 : Fin 3) k q) :=
  congrArg x3 (funext fun a => Fin.ext (by
    match a with
    | ⟨0, _⟩ => show 0 + 1 * 0 = 0; omega
    | ⟨1, _⟩ => show 0 + 1 * k.val = k.val; omega
    | ⟨2, _⟩ => show 0 + 1 * q.val = q.val; omega))
/-- Slice 1. -/
theorem w1_apply (x3 : Vec Ideal S3x128x64 .f32) (k : Fin 128) (q : Fin 64) :
    View.ld x3 r1_2 (ix3 (0 : Fin 1) k q) = x3 (ix3 (1 : Fin 3) k q) :=
  congrArg x3 (funext fun a => Fin.ext (by
    match a with
    | ⟨0, _⟩ => show 1 + 1 * 0 = 1; omega
    | ⟨1, _⟩ => show 0 + 1 * k.val = k.val; omega
    | ⟨2, _⟩ => show 0 + 1 * q.val = q.val; omega))
/-- Slice 2. -/
theorem w2_apply (x3 : Vec Ideal S3x128x64 .f32) (k : Fin 128) (q : Fin 64) :
    View.ld x3 r1_3 (ix3 (0 : Fin 1) k q) = x3 (ix3 (2 : Fin 3) k q) :=
  congrArg x3 (funext fun a => Fin.ext (by
    match a with
    | ⟨0, _⟩ => show 2 + 1 * 0 = 2; omega
    | ⟨1, _⟩ => show 0 + 1 * k.val = k.val; omega
    | ⟨2, _⟩ => show 0 + 1 * q.val = q.val; omega))

/-- What the body leaves in the output block at row p, column q, from the six input blocks: the parametric rectifier of
    the pre-activation there. -/
theorem out_apply (x0 x1 x2 : Vec Ideal S5000x128 .f32) (x3 : Vec Ideal S3x128x64 .f32) (x4 x5 : Vec Ideal S1x64 .f32)
    (p : Fin 5000) (q : Fin 64) :
    out1_6 (F := Ideal) x0 x1 x2 x3 x4 x5 (ix2 p q) =
      Cheb.prelu ((((∑ k : Fin 128, x0 (ix2 p k) * x3 (ix3 (0 : Fin 3) k q)) + (∑ k : Fin 128, x1 (ix2 p k) * x3 (ix3 (1 : Fin 3) k q)))
        + (∑ k : Fin 128, (Cheb.two * x2 (ix2 p k) - x0 (ix2 p k)) * x3 (ix3 (2 : Fin 3) k q))) + x4 (ix2 (0 : Fin 1) q))
        (x5 (ix2 (0 : Fin 1) q)) := by
  unfold out1_6
  rw [View.canon_unit_zero hz2]
  simp only [View.ld_unit_zero (S := S5000x128) hz2, View.ld_unit_zero (S := S1x64) hz2]
  unfold k1_pay1 k1_pay3 k1_pay4
  have hp : k1_pay2 (F := Ideal) x0 x2 x1 (View.ld x3 r1_1) (View.ld x3 r1_2) (View.ld x3 r1_3) x4 (ix2 p q) =
      (((∑ k : Fin 128, x0 (ix2 p k) * x3 (ix3 (0 : Fin 3) k q)) + (∑ k : Fin 128, x1 (ix2 p k) * x3 (ix3 (1 : Fin 3) k q)))
        + (∑ k : Fin 128, (Cheb.two * x2 (ix2 p k) - x0 (ix2 p k)) * x3 (ix3 (2 : Fin 3) k q))) + x4 (ix2 (0 : Fin 1) q) :=
    (pay2_apply x0 x2 x1 (View.ld x3 r1_1) (View.ld x3 r1_2) (View.ld x3 r1_3) x4 p q).trans
      (congrArg (· + x4 (ix2 (0 : Fin 1) q)) (congrArg₂ (· + ·) (congrArg₂ (· + ·)
        (Finset.sum_congr rfl fun k _ => congrArg (x0 (ix2 p k) * ·) (w0_apply x3 k q))
        (Finset.sum_congr rfl fun k _ => congrArg (x1 (ix2 p k) * ·) (w1_apply x3 k q)))
        (Finset.sum_congr rfl fun k _ => congrArg ((Cheb.two * x2 (ix2 p k) - x0 (ix2 p k)) * ·) (w2_apply x3 k q))))
  have ha : broadcastTo S5000x64 (shapeCast S1x64 x5 shapeCasts_S1x64_S1x64) broadcasts_S1x64_S5000x64 (ix2 p q) = x5 (ix2 (0 : Fin 1) q) :=
    (broadcastTo_1b_ab_apply _ broadcasts_S1x64_S5000x64 p q).trans (congrFun (shapeCast_self x5 shapeCasts_S1x64_S1x64) (ix2 (0 : Fin 1) q))
  refine (select_apply _ _ _ _).trans ?_
  simp only [cmpf_apply, mulf_apply, broadcast_apply]
  rw [hp, ha]
  rfl

/-- The printed index maps, decided once over the 20 grid points: the three feature windows and the result window take
    row block t, the weights, the bias and the slope windows stay at block zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A feature window's block at point t is rows 5000·t … 5000·t + 4999 of its array. -/
theorem blk0_apply (c : Dev nD) (t : Fin cfg1.N) (p : Fin 5000) (k : Fin 128) (r : Fin 100000) (hr : r.val = 5000 * t.val + p.val) :
    (iblk1 V c 0 t : Vec Ideal S5000x128 .f32) (ix2 p k) = (V c main_v58 : S100000x128.Idx → EReal) (ix2 r k) := by
  obtain ⟨e0, e1, -⟩ := idx_facts t
  show (V c main_v58 : S100000x128.Idx → EReal) (((cfg1.win 0).blk t).view.emb (ix2 p k)) = _
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- The same for the first propagation's window. -/
theorem blk1_apply (c : Dev nD) (t : Fin cfg1.N) (p : Fin 5000) (k : Fin 128) (r : Fin 100000) (hr : r.val = 5000 * t.val + p.val) :
    (iblk1 V c 1 t : Vec Ideal S5000x128 .f32) (ix2 p k) = (V c main_v71 : S100000x128.Idx → EReal) (ix2 r k) := by
  obtain ⟨-, -, e0, e1, -⟩ := idx_facts t
  show (V c main_v71 : S100000x128.Idx → EReal) (((cfg1.win 1).blk t).view.emb (ix2 p k)) = _
  refine congrArg _ (funext fun a => Fin.ext ?_)
  match a with
  | ⟨0, _⟩ => show win1_1.index t (0 : Fin 2) * 5000 + 1 * p.val = r.val; omega
  | ⟨1, _⟩ => show win1_1.index t (1 : Fin 2) * 128 + 1 * k.val = k.val; omega

/-- The same for the second propagation's window. -/
theorem blk2_apply (c : Dev nD) (t : Fin cfg1.N) (p : Fin 5000) (k : Fin 128) (r : Fin 100000) (hr : r.val = 5000 * t.val + p.val) :
    (iblk1 V c 2 t : Vec Ideal S5000x128 .f32) (ix2 p k) = (V c main_v84 : S100000x128.Idx → EReal) (ix2 r k) := by
  obtain ⟨-, -, -, -, e0, e1, -⟩ := idx_facts t
  show (V c main_v84 : S100000x128.Idx → EReal) (((cfg1.win 2).blk t).view.emb (ix2 p k)) = _
  refine congrArg _ (funext fun a => Fin.ext ?_)
  match a with
  | ⟨0, _⟩ => show win1_2.index t (0 : Fin 2) * 5000 + 1 * p.val = r.val; omega
  | ⟨1, _⟩ => show win1_2.index t (1 : Fin 2) * 128 + 1 * k.val = k.val; omega

/-- The weights' window holds the whole 3×128×64 array at every point. -/
theorem blk3_apply (c : Dev nD) (t : Fin cfg1.N) (s : Fin 3) (k : Fin 128) (q : Fin 64) :
    (iblk1 V c 3 t : Vec Ideal S3x128x64 .f32) (ix3 s k q) = (V c main_arg6 : S3x128x64.Idx → EReal) (ix3 s k q) := by
  obtain ⟨-, -, -, -, -, -, e0, e1, e2, -⟩ := idx_facts t
  show (V c main_arg6 : S3x128x64.Idx → EReal) (((cfg1.win 3).blk t).view.emb (ix3 s k q)) = _
  refine congrArg _ (funext fun a => Fin.ext ?_)
  match a with
  | ⟨0, _⟩ => show win1_3.index t (0 : Fin 3) * 3 + 1 * s.val = s.val; omega
  | ⟨1, _⟩ => show win1_3.index t (1 : Fin 3) * 128 + 1 * k.val = k.val; omega
  | ⟨2, _⟩ => show win1_3.index t (2 : Fin 3) * 64 + 1 * q.val = q.val; omega

/-- The bias window holds the whole 1×64 row at every point. -/
theorem blk4_apply (c : Dev nD) (t : Fin cfg1.N) (q : Fin 64) :
    (iblk1 V c 4 t : Vec Ideal S1x64 .f32) (ix2 (0 : Fin 1) q) = (V c main_v85 : S1x64.Idx → EReal) (ix2 (0 : Fin 1) q) := by
  obtain ⟨-, -, -, -, -, -, -, -, -, e0, e1, -⟩ := idx_facts t
  show (V c main_v85 : S1x64.Idx → EReal) (((cfg1.win 4).blk t).view.emb (ix2 (0 : Fin 1) q)) = _
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The slope window holds the whole 1×64 row at every point. -/
theorem blk5_apply (c : Dev nD) (t : Fin cfg1.N) (q : Fin 64) :
    (iblk1 V c 5 t : Vec Ideal S1x64 .f32) (ix2 (0 : Fin 1) q) = (V c main_v86 : S1x64.Idx → EReal) (ix2 (0 : Fin 1) q) := by
  obtain ⟨-, -, -, -, -, -, -, -, -, -, -, e0, e1, -⟩ := idx_facts t
  show (V c main_v86 : S1x64.Idx → EReal) (((cfg1.win 5).blk t).view.emb (ix2 (0 : Fin 1) q)) = _
  refine congrArg _ (funext fun a => Fin.ext ?_)
  match a with
  | ⟨0, _⟩ => show win1_5.index t (0 : Fin 2) * 1 + 1 * 0 = 0; omega
  | ⟨1, _⟩ => show win1_5.index t (1 : Fin 2) * 64 + 1 * q.val = q.val; omega

/-- Element (p, q) of the result window's block at point t sits at row 5000·t + p, column q of the result array. -/
theorem emb6_apply (t : Fin cfg1.N) (p : Fin 5000) (q : Fin 64) (r : Fin 100000) (hr : r.val = 5000 * t.val + p.val) :
    (((cfg1.win 6).blk t).view.emb (ix2 p q) : S100000x64.Idx) = ix2 r q := by
  obtain ⟨-, -, -, -, -, -, -, -, -, -, -, -, -, e0, e1⟩ := idx_facts t
  refine funext fun a => Fin.ext ?_
  match a with
  | ⟨0, _⟩ => show win1_6.index t (0 : Fin 2) * 5000 + 1 * p.val = r.val; omega
  | ⟨1, _⟩ => show win1_6.index t (1 : Fin 2) * 64 + 1 * q.val = q.val; omega

/-- WHAT POINT t WRITES BACK is block t of the layer's value of the arrays the region found. -/
theorem flushed_eq (c : Dev nD) (t : Fin cfg1.N) :
    (dat1 (F := Ideal) V c).flushed 6 t = ((cfg1.win 6).blk t).view.read (Elt Ideal)
      (Cheb.layer2 (V c main_v58) (V c main_v71) (V c main_v84) (V c main_arg6) (V c main_v85) (V c main_v86)) := by
  show (cfg1.win 6).cut (grid1.coords t) ((dat1 V c).after 6 t) = _
  rw [after1_6]
  funext j
  obtain ⟨p, q, rfl⟩ : ∃ (p : Fin 5000) (q : Fin 64), j = ix2 p q := ⟨j 0, j 1, eq_ix2 j⟩
  have ht : t.val < 20 := lt_of_lt_of_eq t.isLt N_1
  have hp : p.val < 5000 := p.isLt
  let r : Fin 100000 := ⟨5000 * t.val + p.val, by omega⟩
  show out1_6 (F := Ideal) (iblk1 V c 0 t) (iblk1 V c 1 t) (iblk1 V c 2 t) (iblk1 V c 3 t) (iblk1 V c 4 t) (iblk1 V c 5 t) (ix2 p q)
    = Cheb.layer2 (V c main_v58) (V c main_v71) (V c main_v84) (V c main_arg6) (V c main_v85) (V c main_v86) (((cfg1.win 6).blk t).view.emb (ix2 p q))
  rw [emb6_apply t p q r rfl]
  refine (out_apply (iblk1 V c 0 t) (iblk1 V c 1 t) (iblk1 V c 2 t) (iblk1 V c 3 t) (iblk1 V c 4 t) (iblk1 V c 5 t) p q).trans ?_
  show _ = Cheb.prelu (Cheb.pre2 (V c main_v58) (V c main_v71) (V c main_v84) (V c main_arg6) (V c main_v85) r q) ((V c main_v86 : S1x64.Idx → EReal) (ix2 (0 : Fin 1) q))
  unfold Cheb.pre2
  exact congrArg₂ Cheb.prelu
    (congrArg₂ (· + ·) (congrArg₂ (· + ·) (congrArg₂ (· + ·)
      (Finset.sum_congr rfl fun k _ => congrArg₂ (· * ·) (blk0_apply V c t p k r rfl) (blk3_apply V c t 0 k q))
      (Finset.sum_congr rfl fun k _ => congrArg₂ (· * ·) (blk1_apply V c t p k r rfl) (blk3_apply V c t 1 k q)))
      (Finset.sum_congr rfl fun k _ => congrArg₂ (· * ·)
        (congrArg₂ (· - ·) (congrArg (Cheb.two * ·) (blk2_apply V c t p k r rfl)) (blk0_apply V c t p k r rfl)) (blk3_apply V c t 2 k q)))
      (blk4_apply V c t q))
    (blk5_apply V c t q)

/-- An index of the result array is in point t's block iff each coordinate is in the block's range on its axis. -/
theorem mem_blk (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v87).slice (win1_6.rect t)).set ↔ _
  rw [View.set_slice_whole, Rect.mem_set_unit]
  exact Iff.rfl

/-- Row r of the result array is written back by point r / 5000: the twenty blocks of 5000 rows cover the array. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  have htv : t.val = (i 0).val / 5000 := rfl
  obtain ⟨-, -, -, -, -, -, -, -, -, -, -, -, -, e0, e1⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- After the second layer's region the result array holds the layer's value of the arrays the region found. -/
theorem layer2_arr (c : Dev nD) :
    (dat1 (F := Ideal) V c).arrAt 6 cfg1.N =
      Cheb.layer2 (V c main_v58) (V c main_v71) (V c main_v84) (V c main_arg6) (V c main_v85) (V c main_v86) :=
  (dat1 (F := Ideal) V c).arrAt_eq_of_cover 6 _ (fun t _ => flushed_eq V c t) cover

end Cert.KernelIdeal.L2

end
-- ==== Proof.PoolValue.lean ====
import proofs.«402110_j80401787781631_2_alg».proof.Proof.Gen.KernelIdeal.Frame
import proofs.«402110_j80401787781631_2_alg».proof.Proof.ChebSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pool
open Cert.KernelIdeal Cert.KernelIdeal.Gen

variable (V : (c : Dev nD) → (b : Ref sig .tc) → Buf (Elt Ideal) ((c : Thread nD τ).loc b))

/-! The pooling region, read as values. Point `t` of its twenty points handles nodes `5000·t … 5000·t + 4999`: it
forms the 5000×64 matrix that is `1` at (node, `g`) where the node's graph id, read signed, is `g` and `0` elsewhere,
contracts it with the point's 5000×64 block of features along the nodes, and adds the 64×64 product to the result's
buffer, which the first point has zeroed. Over the extended reals `1·x = x` and `0·x = 0`, so after point `t` the
buffer holds, at row `g` and column `c`, the sum of feature `c` over the nodes below `5000·(t + 1)` whose id is `g`
(induction on the point); after the last point that is the sum over all 100000 nodes. Only the last point writes
the buffer back, and its block is the whole 64×64 array. -/

theorem hz : (![0, 0] : Fin 2 → Nat) = fun _ => 0 := funext fun a => by fin_cases a <;> rfl

section Pieces
variable {F : FTy → Type} [FloatOps F]

/-- A later point leaves, in the result's buffer holding `xo`, the payload of its one covering store: the
    previous contents plus the point's contribution. -/
theorem out_B (c : Dev nD) (i : grid2.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (hc : ¬cond2_0 i) (x0 : Vec F S5000x64 .f32) (x1 : Vec F S5000x1 .i32) (xo : Vec F S64x64 .f32) :
    out2_B_2 c i a1 h1 a2 h2 a3 h3 hc x0 x1 xo = k2_pay2 x1 x0 xo := by
  unfold out2_B_2
  rw [View.read_writes_eq_canon _ _ _ (cover2_B_2 c i a1 h1 a2 h2 a3 h3 hc x0 x1 xo)]
  unfold kernelRun2_B
  dsimp only
  sl_unfold_words
  rw [View.canon_unit_zero hz]
  simp only [View.readAt_eq_ld, h1.read_unread, h2.read_unread, h3.read_unread, View.ld_unit_zero (S := S5000x64) hz,
    View.ld_unit_zero (S := S5000x1) hz, View.ld_unit_zero (S := S64x64) hz]

/-- The first point stores the zero block, reads it back, and leaves the zero block plus its contribution. -/
theorem out_A (c : Dev nD) (i : grid2.Coords) (a1 : Memref sig .tc .vmem S5000x64 .f32) (h1 : a1.IsWhole)
    (a2 : Memref sig .tc .vmem S5000x1 .i32) (h2 : a2.IsWhole) (a3 : Memref sig .tc .vmem S64x64 .f32) (h3 : a3.IsWhole)
    (hc : cond2_0 i) (x0 : Vec F S5000x64 .f32) (x1 : Vec F S5000x1 .i32) :
    out2_A_2 c i a1 h1 a2 h2 a3 h3 hc x0 x1 = k2_pay2 x1 x0 (k2_pay1 (F := F)) := by
  unfold out2_A_2
  rw [View.read_writes_eq_canon _ _ _ (cover2_A_2 c i a1 h1 a2 h2 a3 h3 hc x0 x1)]
  unfold kernelRun2_A
  dsimp only
  sl_unfold_words
  rw [View.canon_cons_unit_zero (S := S64x64) hz, View.readCov_unit_zero (S := S64x64) _ hz]
  simp only [View.readAt_eq_ld, h1.read_unread, h2.read_unread, View.ld_unit_zero (S := S5000x64) hz,
    View.ld_unit_zero (S := S5000x1) hz]
end Pieces

section Payload

/-- The word of a number below 64, read signed, is that number. -/
theorem toInt_word (g : Fin 64) : (BitVec.ofNat 32 g.val).toInt = (g.val : Int) := by
  have := g.isLt
  rw [BitVec.toInt_eq_toNat_cond, BitVec.toNat_ofNat]
  omega

/-- A word of 32 bits is the word of a number below 64 exactly when, read signed, it is that number. -/
theorem word_eq_iff (w : BitVec 32) (g : Fin 64) : w = BitVec.ofNat 32 g.val ↔ w.toInt = (g.val : Int) :=
  ⟨fun e => e ▸ toInt_word g, fun h => BitVec.eq_of_toInt_eq (h.trans (toInt_word g).symm)⟩

/-- The comparison bit of a word with the word of `g`, widened and converted, is `1` where the word read signed is
    `g` and `0` elsewhere. -/
theorem onehot_scalar (w : BitVec 32) (g : Fin 64) :
    (FloatOps.sitofp (F := Ideal) .f32 ((IntOp.cmpi .eq w (BitVec.ofNat 32 g.val)).setWidth 32) : EReal)
      = if w.toInt = (g.val : Int) then 1 else 0 := by
  show (((((IntOp.cmpi .eq w (BitVec.ofNat 32 g.val)).setWidth 32).toInt : ℝ)) : EReal) = _
  by_cases h : w.toInt = (g.val : Int)
  · have e : IntOp.cmpi .eq w (BitVec.ofNat 32 g.val) = 1#1 := by
      rw [(word_eq_iff w g).mpr h]; simp [IntOp.cmpi]
    rw [if_pos h, e, show ((1#1 : BitVec 1).setWidth 32).toInt = 1 from by decide]
    simp
  · have hne : ¬ w = BitVec.ofNat 32 g.val := fun e => h ((word_eq_iff w g).mp e)
    have e : IntOp.cmpi .eq w (BitVec.ofNat 32 g.val) = 0#1 := by
      show BitVec.ofBool (w == BitVec.ofNat 32 g.val) = 0#1
      rw [beq_eq_false_iff_ne.mpr hne]; rfl
    rw [if_neg h, e, show ((0#1 : BitVec 1).setWidth 32).toInt = 0 from by decide]
    simp

theorem lhs_pool_0 (i : S64x64.Idx) (q : dot_S5000x64_S5000x64_S64x64_0_0_1_1_n_n.contr.Idx) :
    (dot_S5000x64_S5000x64_S64x64_0_0_1_1_n_n.lhsIdx i q 0).val = (q ⟨0, by decide⟩).val :=
  dot_S5000x64_S5000x64_S64x64_0_0_1_1_n_n.lhsIdx_val_of_single rfl i q
theorem lhs_pool_1 (i : S64x64.Idx) (q : dot_S5000x64_S5000x64_S64x64_0_0_1_1_n_n.contr.Idx) :
    (dot_S5000x64_S5000x64_S64x64_0_0_1_1_n_n.lhsIdx i q 1).val = (i 0).val := by
  unfold DotDims.lhsIdx
  rw [dif_neg (show ¬(1 : Fin S5000x64.rank) ∈ dot_S5000x64_S5000x64_S64x64_0_0_1_1_n_n.lhsBatch by decide), dif_pos (show (1 : Fin S5000x64.rank) ∈ dot_S5000x64_S5000x64_S64x64_0_0_1_1_n_n.lhsNonContracting by decide)]
  rfl
theorem rhs_pool_0 (i : S64x64.Idx) (q : dot_S5000x64_S5000x64_S64x64_0_0_1_1_n_n.contr.Idx) :
    (dot_S5000x64_S5000x64_S64x64_0_0_1_1_n_n.rhsIdx i q 0).val = (q ⟨0, by decide⟩).val :=
  dot_S5000x64_S5000x64_S64x64_0_0_1_1_n_n.rhsIdx_val_of_single rfl i q
theorem rhs_pool_1 (i : S64x64.Idx) (q : dot_S5000x64_S5000x64_S64x64_0_0_1_1_n_n.contr.Idx) :
    (dot_S5000x64_S5000x64_S64x64_0_0_1_1_n_n.rhsIdx i q 1).val = (i 1).val := by
  unfold DotDims.rhsIdx
  rw [dif_neg (show ¬(1 : Fin S5000x64.rank) ∈ dot_S5000x64_S5000x64_S64x64_0_0_1_1_n_n.rhsBatch by decide), dif_pos (show (1 : Fin S5000x64.rank) ∈ dot_S5000x64_S5000x64_S64x64_0_0_1_1_n_n.rhsNonContracting by decide)]
  rfl

/-- The block product into the zero accumulator, at row `g` and column `c`: both operands are contracted along
    their node axis. -/
theorem matmul_pool_apply (A B : FVec Ideal S5000x64 .bf16) (g c : Fin 64) :
    matmul dot_S5000x64_S5000x64_S64x64_0_0_1_1_n_n none A B (constant S64x64 .f32 0x00000000#32) (ix2 g c)
      = ∑ n : Fin 5000, A (ix2 n g) * B (ix2 n c) := by
  simp only [matmul]
  rw [Ideal.matmul_constant_zero_apply, ← Equiv.sum_comp (contrEquiv1 dot_S5000x64_S5000x64_S64x64_0_0_1_1_n_n 5000 rfl rfl).symm]
  refine Finset.sum_congr rfl fun k _ => ?_
  have hk := contrEquiv1_symm_val dot_S5000x64_S5000x64_S64x64_0_0_1_1_n_n 5000 rfl rfl k
  have el : dot_S5000x64_S5000x64_S64x64_0_0_1_1_n_n.lhsIdx (ix2 g c) ((contrEquiv1 dot_S5000x64_S5000x64_S64x64_0_0_1_1_n_n 5000 rfl rfl).symm k) = ix2 k g := funext fun a => Fin.ext (by
    match a with
    | ⟨0, _⟩ => exact (lhs_pool_0 _ _).trans hk
    | ⟨1, _⟩ => exact lhs_pool_1 _ _)
  have er : dot_S5000x64_S5000x64_S64x64_0_0_1_1_n_n.rhsIdx (ix2 g c) ((contrEquiv1 dot_S5000x64_S5000x64_S64x64_0_0_1_1_n_n 5000 rfl rfl).symm k) = ix2 k c := funext fun a => Fin.ext (by
    match a with
    | ⟨0, _⟩ => exact (rhs_pool_0 _ _).trans hk
    | ⟨1, _⟩ => exact rhs_pool_1 _ _)
  rw [el, er]

end Payload

section PayloadAt

/-- Row `n`, column `g` of the one-hot operand: `1` where node `n`'s id, read signed, is `g`, else `0`. The column
    number is the word of `g`; the narrowing of the float format changes nothing on the extended reals. -/
theorem onehot_apply (ids : Vec Ideal S5000x1 .i32) (n : Fin 5000) (g : Fin 64) :
    (truncf .bf16 (sitofp .f32 (extui 32 (cmpi .eq
        (broadcastTo S5000x64 (shapeCast S5000x1 ids shapeCasts_S5000x1_S5000x1) broadcasts_S5000x1_S5000x64)
        (iota .tc S5000x64 32 [1] iota_S5000x64_d1_w32)) natLt_1_32)) bitsLt_bf16_f32 : FVec Ideal S5000x64 .bf16) (ix2 n g)
      = if (ids (ix2 n (0 : Fin 1))).toInt = (g.val : Int) then 1 else 0 := by
  rw [shapeCast_self]
  show FloatOps.sitofp (F := Ideal) .f32 ((IntOp.cmpi .eq (broadcastTo S5000x64 ids broadcasts_S5000x1_S5000x64 (ix2 n g))
    (iota .tc S5000x64 32 [1] iota_S5000x64_d1_w32 (ix2 n g))).setWidth 32) = _
  rw [broadcastTo_apply ids broadcasts_S5000x1_S5000x64 (ix2 n g) (ix2 n (0 : Fin 1)) (fun a => by
      match a with
      | ⟨0, _⟩ => show n.val = if (5000 : Nat) = 1 then 0 else n.val; rw [if_neg (by decide)]
      | ⟨1, _⟩ => show (0 : Nat) = if (1 : Nat) = 1 then 0 else g.val; rw [if_pos rfl]),
    iota_single_apply]
  exact onehot_scalar _ g

/-- The zero block reads `0` everywhere. -/
theorem pay1_apply (j : S64x64.Idx) : k2_pay1 (F := Ideal) j = 0 := Ideal.ofBits_zero_f32

/-- What a point stores, at row `g` and column `c`: the buffer's previous entry plus the sum, over the point's 5000
    nodes, of the node's feature `c` where the node's id read signed is `g` (`1·x = x`, `0·x = 0` on the
    extended reals). -/
theorem pay2_apply (ids : Vec Ideal S5000x1 .i32) (hb : Vec Ideal S5000x64 .f32) (prev : Vec Ideal S64x64 .f32) (g c : Fin 64) :
    k2_pay2 (F := Ideal) ids hb prev (ix2 g c)
      = prev (ix2 g c) + ∑ n : Fin 5000, if (ids (ix2 n (0 : Fin 1))).toInt = (g.val : Int) then hb (ix2 n c) else 0 := by
  unfold k2_pay2
  refine (addf_apply _ _ (ix2 g c)).trans ?_
  refine congrArg₂ (· + ·) (congrFun (shapeCast_self prev shapeCasts_S64x64_S64x64) (ix2 g c)) ?_
  refine (matmul_pool_apply _ _ g c).trans ?_
  refine Finset.sum_congr rfl fun n _ => ?_
  rw [onehot_apply ids n g]
  show _ * (shapeCast S5000x64 hb shapeCasts_S5000x64_S5000x64 (ix2 n c)) = _
  rw [shapeCast_self, ite_mul, one_mul, zero_mul]

end PayloadAt

section Blocks

/-- The two input windows' blocks at point `t`, and the two arrays they are blocks of. -/
abbrev hblk (c : Dev nD) (t : Fin cfg2.N) : Vec Ideal S5000x64 .f32 := iblk2 V c 0 t
abbrev idblk (c : Dev nD) (t : Fin cfg2.N) : Vec Ideal S5000x1 .i32 := iblk2 V c 1 t
abbrev harr (c : Dev nD) : Cheb.SN64.Idx → EReal := V c main_v87
abbrev idarr (c : Dev nD) : Cheb.SBt.Idx → BitVec 32 := V c main_v88

/-- The block indices of the two input windows at point `t`: block `t` along the nodes, block `0` across. -/
theorem idx_in : ∀ t : Fin cfg2.N, (win2_0.index t 0 = t.val ∧ win2_0.index t 1 = 0) ∧ (win2_1.index t 0 = t.val ∧ win2_1.index t 1 = 0) :=
  (by decide +kernel : ∀ t : Fin grid2.N, (win2_0.index t 0 = t.val ∧ win2_0.index t 1 = 0) ∧ (win2_1.index t 0 = t.val ∧ win2_1.index t 1 = 0))

/-- The feature window's block at point `t` holds rows `5000·t … 5000·t + 4999` of the feature array. -/
theorem hblk_apply (c : Dev nD) (t : Fin cfg2.N) (n : Fin 5000) (c' : Fin 64) (hn : 5000 * t.val + n.val < 100000) :
    hblk V c t (ix2 n c') = harr V c (ix2 (⟨5000 * t.val + n.val, hn⟩ : Fin 100000) c') := by
  have hi := (idx_in t).1
  unfold hblk harr iblk2
  rw [View.read_apply]
  show V c main_v87 _ = V c main_v87 _
  congr 1
  funext a
  apply Fin.ext
  match a with
  | ⟨0, _⟩ => show win2_0.index t 0 * 5000 + 1 * n.val = 5000 * t.val + n.val; rw [hi.1]; omega
  | ⟨1, _⟩ => show win2_0.index t 1 * 64 + 1 * c'.val = c'.val; rw [hi.2]; omega

/-- The id window's block at point `t` holds the ids of nodes `5000·t … 5000·t + 4999`. -/
theorem idblk_apply (c : Dev nD) (t : Fin cfg2.N) (n : Fin 5000) (hn : 5000 * t.val + n.val < 100000) :
    idblk V c t (ix2 n (0 : Fin 1)) = idarr V c (ix2 (⟨5000 * t.val + n.val, hn⟩ : Fin 100000) (0 : Fin 1)) := by
  have hi := (idx_in t).2
  unfold idblk idarr iblk2
  rw [View.read_apply]
  show V c main_v88 _ = V c main_v88 _
  congr 1
  funext a
  apply Fin.ext
  match a with
  | ⟨0, _⟩ => show win2_1.index t 0 * 5000 + 1 * n.val = 5000 * t.val + n.val; rw [hi.1]; omega
  | ⟨1, _⟩ => show win2_1.index t 1 * 1 + 1 * 0 = 0; rw [hi.2]

end Blocks

section Accumulation

/-- Node `j`'s addend to row `g`, column `c'` of the sums: its feature `c'` where its id, read signed, is `g`, else
    `0`; `0` past the last node. -/
def node (c : Dev nD) (g c' : Fin 64) (j : ℕ) : EReal :=
  if h : j < 100000 then
    (if (idarr V c (ix2 (⟨j, h⟩ : Fin 100000) (0 : Fin 1))).toInt = (g.val : Int)
      then harr V c (ix2 (⟨j, h⟩ : Fin 100000) c') else 0)
  else 0

/-- Point `t`'s contribution at row `g`, column `c'` is the sum of the addends of nodes `5000·t … 5000·t + 4999`. -/
theorem contrib_eq (c : Dev nD) (t : Fin cfg2.N) (g c' : Fin 64) :
    (∑ n : Fin 5000, if (idblk V c t (ix2 n (0 : Fin 1))).toInt = (g.val : Int) then hblk V c t (ix2 n c') else 0)
      = ∑ k ∈ Finset.range 5000, node V c g c' (5000 * t.val + k) := by
  have hN : t.val < 20 := lt_of_lt_of_eq t.isLt (show cfg2.N = 20 from N_2)
  rw [← Fin.sum_univ_eq_sum_range (fun k => node V c g c' (5000 * t.val + k)) 5000]
  refine Finset.sum_congr rfl fun n _ => ?_
  have hn : 5000 * t.val + n.val < 100000 := by have := n.isLt; omega
  rw [hblk_apply V c t n c' hn, idblk_apply V c t n hn]
  unfold node
  rw [dif_pos hn]

/-- After point `n` the result's buffer holds, at row `g` and column `c'`, the sum of the addends of all nodes below
    `5000·(n + 1)`: the first point starts from the zero block, each later one adds to what the point before left. -/
theorem outsAt_apply (c : Dev nD) (g c' : Fin 64) : ∀ (n : ℕ) (h : n < cfg2.N),
    outsAt2 V c n h (ix2 g c') = ∑ j ∈ Finset.range (5000 * (n + 1)), node V c g c' j
  | 0, h => by
    rw [outsAt2_A V c ⟨0, h⟩ rfl, out_A]
    refine (pay2_apply (idblk V c ⟨0, h⟩) (hblk V c ⟨0, h⟩) (k2_pay1 (F := Ideal)) g c').trans ?_
    rw [pay1_apply, zero_add, contrib_eq]
    simp only [Nat.mul_zero, Nat.zero_add, Nat.mul_one]
  | n + 1, h => by
    have hN : cfg2.N = 20 := N_2
    have hB : ¬(⟨n + 1, h⟩ : Fin cfg2.N).val % 20 = 0 := by dsimp only; omega
    rw [outsAt2_B V c ⟨n + 1, h⟩ hB, out_B]
    refine (pay2_apply (idblk V c ⟨n + 1, h⟩) (hblk V c ⟨n + 1, h⟩) (outsAt2 V c n (Nat.lt_of_succ_lt h)) g c').trans ?_
    rw [outsAt_apply c g c' n (Nat.lt_of_succ_lt h), contrib_eq, show 5000 * (n + 1 + 1) = 5000 * (n + 1) + 5000 from by omega,
      Finset.sum_range_add]

/-- The sum of all nodes' addends is the per-graph sum. -/
theorem sum_node_eq (c : Dev nD) (g c' : Fin 64) :
    ∑ j ∈ Finset.range 100000, node V c g c' j = Cheb.pool (V c main_v87) (V c main_v88) (ix2 g c') := by
  unfold Cheb.pool
  rw [← Fin.sum_univ_eq_sum_range (fun j => node V c g c' j) 100000]
  refine Finset.sum_congr rfl fun n _ => ?_
  unfold node
  rw [dif_pos n.isLt]

/-- The last point. -/
abbrev tlast : Fin cfg2.N := ⟨19, by decide⟩

/-- After the last point the buffer holds the per-graph sums. -/
theorem result_eq (c : Dev nD) :
    outsAt2 V c tlast.val tlast.isLt = Cheb.pool (V c main_v87) (V c main_v88) := by
  funext j
  obtain ⟨g, c', rfl⟩ : ∃ (g c' : Fin 64), j = ix2 g c' := ⟨j 0, j 1, eq_ix2 j⟩
  rw [outsAt_apply V c g c' 19 tlast.isLt]
  exact sum_node_eq V c g c'

end Accumulation

section Final

/-- The one write-back, at the last point, writes the per-graph sums: block (0, 0) of the 64×64 result array, read
    through zero offsets, is the array. -/
theorem flushed_eq (c : Dev nD) (t : Fin cfg2.N) (hf : (cfg2.win 2).flush t = true) :
    (dat2 (F := Ideal) V c).flushed 2 t
      = ((cfg2.win 2).blk t).view.read (Elt Ideal) (Cheb.pool (V c main_v87) (V c main_v88)) := by
  have hN : cfg2.N = 20 := N_2
  have h19 : t.val = 19 := by have := (flush2_2 t).mp hf; have := t.isLt; omega
  obtain rfl : t = tlast := Fin.ext h19
  show (cfg2.win 2).cut (grid2.coords tlast) ((dat2 (F := Ideal) V c).after 2 tlast) = _
  rw [after2_2, result_eq]
  have hz' : (fun a => win2_2.index tlast a * main_v89.ty.shape.size a) = fun _ => 0 := funext fun a => by fin_cases a <;> decide
  exact (Memref.read_access_unit_zero (Elt Ideal) main_v89 hz' (fun a => by rw [congrFun hz' a]; simp)
    (Cheb.pool (V c main_v87) (V c main_v88))).symm

end Final

/-- After the pooling region the result array holds the per-graph sums of the arrays the region found. -/
theorem pool_arr (c : Dev nD) :
    (dat2 (F := Ideal) V c).arrAt 2 cfg2.N = Cheb.pool (V c main_v87) (V c main_v88) :=
  (dat2 (F := Ideal) V c).arrAt_eq_of_cover 2 (Cheb.pool (V c main_v87) (V c main_v88)) (flushed_eq V c) fun i =>
    ⟨tlast, (flush2_2 tlast).mpr rfl, by
      show i ∈ ((View.whole main_v89).slice (win2_2.rect tlast)).set
      rw [View.set_slice_whole, Rect.mem_set_unit]
      intro a
      have h0 : (i 0 : Nat) < 64 := (i 0).isLt
      have h1 : (i 1 : Nat) < 64 := (i 1).isLt
      match a with
      | ⟨0, _⟩ =>
        show win2_2.index tlast 0 * win2_2.size 0 ≤ (i 0 : Nat) ∧ (i 0 : Nat) < win2_2.index tlast 0 * win2_2.size 0 + win2_2.xsize (grid2.coords tlast) 0
        rw [show win2_2.index tlast 0 * win2_2.size 0 = 0 from by decide +kernel, show win2_2.xsize (grid2.coords tlast) 0 = 64 from by decide +kernel]; omega
      | ⟨1, _⟩ =>
        show win2_2.index tlast 1 * win2_2.size 1 ≤ (i 1 : Nat) ∧ (i 1 : Nat) < win2_2.index tlast 1 * win2_2.size 1 + win2_2.xsize (grid2.coords tlast) 1
        rw [show win2_2.index tlast 1 * win2_2.size 1 = 0 from by decide +kernel, show win2_2.xsize (grid2.coords tlast) 1 = 64 from by decide +kernel]; omega⟩

end Cert.KernelIdeal.Pool

end
-- ==== Proof.RefLayers.lean ====
import proofs.«402110_j80401787781631_2_alg».proof.Proof.ReadP
import proofs.«402110_j80401787781631_2_alg».proof.Proof.ChebSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.RefBridge
open Cert.ReferenceIdeal Cert.ReferenceIdeal.Read

/-! ## The first layer: 128 features in, 128 out

Every element of the reference's result is read at an index given by its coordinates `(r, j)`. The three matrix
products are sums over the contracted feature `k`; their operands' composed index maps are identified with the
coordinate constructors first. The two propagations are never opened. -/

/-- The left operand of the reference's product `%32` is read at row `r`, column `k`. -/
theorem lidx_v32_at (r : Fin 100000) (j k : Fin 128) : lidx_main_v32 (ix2 r j) k = ix2 r k :=
  funext fun a => Fin.ext (by match a with | ⟨0, _⟩ => rfl | ⟨1, _⟩ => rfl)

/-- The left operand of the reference's product `%48` is read at row `r`, column `k`. -/
theorem lidx_v48_at (r : Fin 100000) (j k : Fin 128) : lidx_main_v48 (ix2 r j) k = ix2 r k :=
  funext fun a => Fin.ext (by match a with | ⟨0, _⟩ => rfl | ⟨1, _⟩ => rfl)

/-- The left operand of the reference's product `%68` is read at row `r`, column `k`. -/
theorem lidx_v68_at (r : Fin 100000) (j k : Fin 128) : lidx_main_v68 (ix2 r j) k = ix2 r k :=
  funext fun a => Fin.ext (by match a with | ⟨0, _⟩ => rfl | ⟨1, _⟩ => rfl)

/-- Slice `0` of the weights, flattened to a `128 × 128` matrix and read at row `k`, column `j`, is the weights at `(0, k, j)`:
    the flat position `k·128 + j` splits back into `k` and `j`. -/
theorem widx_v32_at (r : Fin 100000) (j k : Fin 128) :
    idx_main_v30 (idx_main_v31 (ridx_main_v32 (ix2 r j) k)) = ix3 (0 : Fin 3) k j :=
  funext fun a => Fin.ext (by
    have hk : k.val < 128 := k.isLt
    have hj : j.val < 128 := j.isLt
    match a with
    | ⟨0, _⟩ => rfl
    | ⟨1, _⟩ =>
      show (k.val * 128 + j.val) / 128 % 128 = k.val
      omega
    | ⟨2, _⟩ =>
      show (k.val * 128 + j.val) % 128 = j.val
      omega)

/-- Slice `1` of the weights, flattened to a `128 × 128` matrix and read at row `k`, column `j`, is the weights at `(1, k, j)`:
    the flat position `k·128 + j` splits back into `k` and `j`. -/
theorem widx_v48_at (r : Fin 100000) (j k : Fin 128) :
    idx_main_v46 (idx_main_v47 (ridx_main_v48 (ix2 r j) k)) = ix3 (1 : Fin 3) k j :=
  funext fun a => Fin.ext (by
    have hk : k.val < 128 := k.isLt
    have hj : j.val < 128 := j.isLt
    match a with
    | ⟨0, _⟩ => rfl
    | ⟨1, _⟩ =>
      show (k.val * 128 + j.val) / 128 % 128 = k.val
      omega
    | ⟨2, _⟩ =>
      show (k.val * 128 + j.val) % 128 = j.val
      omega)

/-- Slice `2` of the weights, flattened to a `128 × 128` matrix and read at row `k`, column `j`, is the weights at `(2, k, j)`:
    the flat position `k·128 + j` splits back into `k` and `j`. -/
theorem widx_v68_at (r : Fin 100000) (j k : Fin 128) :
    idx_main_v66 (idx_main_v67 (ridx_main_v68 (ix2 r j) k)) = ix3 (2 : Fin 3) k j :=
  funext fun a => Fin.ext (by
    have hk : k.val < 128 := k.isLt
    have hj : j.val < 128 := j.isLt
    match a with
    | ⟨0, _⟩ => rfl
    | ⟨1, _⟩ =>
      show (k.val * 128 + j.val) / 128 % 128 = k.val
      omega
    | ⟨2, _⟩ =>
      show (k.val * 128 + j.val) % 128 = j.val
      omega)

/-- The product with the first weight slice: `Σ_k x[r,k]·W[0,k,j]`. -/
theorem dot32_at (x0 : (⟨S100000x128, .f32⟩ : BufTy).Contents (Elt Ideal)) (x3 : (⟨S3x128x128, .f32⟩ : BufTy).Contents (Elt Ideal)) (r : Fin 100000) (j : Fin 128) :
    val_main_v32 (F := Ideal) x0 x3 (ix2 r j) = ∑ k : Fin 128, x0 (ix2 r k) * x3 (ix3 (0 : Fin 3) k j) := by
  rw [val_main_v32_apply]
  refine Finset.sum_congr rfl fun k _ => ?_
  rw [val_main_v31_apply, val_main_v30_apply, lidx_v32_at r j k, widx_v32_at r j k]

/-- The product of the first propagation with the second weight slice: `Σ_k tx1[r,k]·W[1,k,j]`. -/
theorem dot48_at (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (r : Fin 100000) (j : Fin 128) :
    val_main_v48 (F := Ideal) x0 x1 x3 (ix2 r j) =
      ∑ k : Fin 128, val_main_v45 (F := Ideal) x0 x1 (ix2 r k) * x3 (ix3 (1 : Fin 3) k j) := by
  rw [val_main_v48_apply]
  refine Finset.sum_congr rfl fun k _ => ?_
  rw [val_main_v47_apply, val_main_v46_apply, lidx_v48_at r j k, widx_v48_at r j k]

/-- The product of the third Chebyshev term `2·p − x` with the third weight slice: `Σ_k (2·p[r,k] − x[r,k])·W[2,k,j]`. -/
theorem dot68_at (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (r : Fin 100000) (j : Fin 128) :
    val_main_v68 (F := Ideal) x0 x1 x3 (ix2 r j) =
      ∑ k : Fin 128, (Cheb.two * val_main_v62 (F := Ideal) x0 x1 (ix2 r k) - x0 (ix2 r k)) * x3 (ix3 (2 : Fin 3) k j) := by
  rw [val_main_v68_apply]
  refine Finset.sum_congr rfl fun k _ => ?_
  rw [val_main_v67_apply, val_main_v66_apply, val_main_v65_apply, val_main_v64_apply, val_main_v63_apply, val_main_cst_13_apply,
    lidx_v68_at r j k, widx_v68_at r j k]
  rfl

/-- The bias vector broadcast over the rows, read at `(r, j)`, is the bias row at `(0, j)`. -/
theorem bias1_at (x4 : (⟨S128, .f32⟩ : BufTy).Contents (Elt Ideal)) (h : S128.ShapeCasts S1x128) (r : Fin 100000) (j : Fin 128) :
    val_main_v71 (F := Ideal) x4 (ix2 r j) = shapeCast S1x128 x4 h (ix2 (0 : Fin 1) j) := by
  rw [val_main_v71_apply, val_main_v70_apply, shapeCast_a_1a_apply (a := 128) x4 h (0 : Fin 1) j]
  exact congrArg x4 (funext fun a => Fin.ext (by match a with | ⟨0, _⟩ => rfl))

/-- The slope vector broadcast over the rows, read at `(r, j)`, is the slope row at `(0, j)`. -/
theorem slope1_at (x5 : (⟨S128, .f32⟩ : BufTy).Contents (Elt Ideal)) (h : S128.ShapeCasts S1x128) (r : Fin 100000) (j : Fin 128) :
    val_main_v76 (F := Ideal) x5 (ix2 r j) = shapeCast S1x128 x5 h (ix2 (0 : Fin 1) j) := by
  rw [val_main_v76_apply, val_main_v75_apply, shapeCast_a_1a_apply (a := 128) x5 h (0 : Fin 1) j]
  exact congrArg x5 (funext fun a => Fin.ext (by match a with | ⟨0, _⟩ => rfl))

/-- The first layer's pre-activation at `(r, j)`: the three products added in order, then the bias. -/
theorem pre1_at (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 : (⟨S128, .f32⟩ : BufTy).Contents (Elt Ideal)) (h : S128.ShapeCasts S1x128) (r : Fin 100000) (j : Fin 128) :
    val_main_v72 (F := Ideal) x0 x1 x3 x4 (ix2 r j) =
      Cheb.pre1 x0 (val_main_v45 (F := Ideal) x0 x1) (val_main_v62 (F := Ideal) x0 x1) x3 (shapeCast S1x128 x4 h) r j := by
  rw [val_main_v72_apply, val_main_v69_apply, val_main_v49_apply, dot32_at x0 x3 r j, dot48_at x0 x1 x3 r j, dot68_at x0 x1 x3 r j,
    bias1_at x4 h r j]
  rfl

/-- The reference's first layer, read index by index, is the layer's value of the features, their two propagations,
    the weights and the bias and slope rows. -/
theorem v78_eq (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 x5 : (⟨S128, .f32⟩ : BufTy).Contents (Elt Ideal))
    (h : S128.ShapeCasts S1x128) :
    val_main_v78 (F := Ideal) x0 x1 x3 x4 x5 =
      Cheb.layer1 x0 (val_main_v45 (F := Ideal) x0 x1) (val_main_v62 (F := Ideal) x0 x1) x3 (shapeCast S1x128 x4 h) (shapeCast S1x128 x5 h) := by
  funext i
  obtain ⟨r, j, rfl⟩ : ∃ (r : Fin 100000) (j : Fin 128), i = ix2 r j := ⟨i 0, i 1, eq_ix2 i⟩
  show val_main_v78 (F := Ideal) x0 x1 x3 x4 x5 (ix2 r j) =
    Cheb.prelu (Cheb.pre1 x0 (val_main_v45 (F := Ideal) x0 x1) (val_main_v62 (F := Ideal) x0 x1) x3 (shapeCast S1x128 x4 h) r j)
      (shapeCast S1x128 x5 h (ix2 (0 : Fin 1) j))
  rw [val_main_v78_apply, val_main_v74_apply, val_main_v77_apply, val_main_v73_apply, val_main_cst_14_apply,
    slope1_at x5 h r j, pre1_at x0 x1 x3 x4 h r j]
  rfl

/-! ## The second layer: 128 features in, 64 out

The same reading over the first layer's result and its two propagations, none of which is opened. -/

/-- The left operand of the reference's product `%81` is read at row `r`, column `k`. -/
theorem lidx_v81_at (r : Fin 100000) (j : Fin 64) (k : Fin 128) : lidx_main_v81 (ix2 r j) k = ix2 r k :=
  funext fun a => Fin.ext (by match a with | ⟨0, _⟩ => rfl | ⟨1, _⟩ => rfl)

/-- The left operand of the reference's product `%97` is read at row `r`, column `k`. -/
theorem lidx_v97_at (r : Fin 100000) (j : Fin 64) (k : Fin 128) : lidx_main_v97 (ix2 r j) k = ix2 r k :=
  funext fun a => Fin.ext (by match a with | ⟨0, _⟩ => rfl | ⟨1, _⟩ => rfl)

/-- The left operand of the reference's product `%117` is read at row `r`, column `k`. -/
theorem lidx_v117_at (r : Fin 100000) (j : Fin 64) (k : Fin 128) : lidx_main_v117 (ix2 r j) k = ix2 r k :=
  funext fun a => Fin.ext (by match a with | ⟨0, _⟩ => rfl | ⟨1, _⟩ => rfl)

/-- Slice `0` of the weights, flattened to a `128 × 64` matrix and read at row `k`, column `j`, is the weights at `(0, k, j)`:
    the flat position `k·64 + j` splits back into `k` and `j`. -/
theorem widx_v81_at (r : Fin 100000) (j : Fin 64) (k : Fin 128) :
    idx_main_v79 (idx_main_v80 (ridx_main_v81 (ix2 r j) k)) = ix3 (0 : Fin 3) k j :=
  funext fun a => Fin.ext (by
    have hk : k.val < 128 := k.isLt
    have hj : j.val < 64 := j.isLt
    match a with
    | ⟨0, _⟩ => rfl
    | ⟨1, _⟩ =>
      show (k.val * 64 + j.val) / 64 % 128 = k.val
      omega
    | ⟨2, _⟩ =>
      show (k.val * 64 + j.val) % 64 = j.val
      omega)

/-- Slice `1` of the weights, flattened to a `128 × 64` matrix and read at row `k`, column `j`, is the weights at `(1, k, j)`:
    the flat position `k·64 + j` splits back into `k` and `j`. -/
theorem widx_v97_at (r : Fin 100000) (j : Fin 64) (k : Fin 128) :
    idx_main_v95 (idx_main_v96 (ridx_main_v97 (ix2 r j) k)) = ix3 (1 : Fin 3) k j :=
  funext fun a => Fin.ext (by
    have hk : k.val < 128 := k.isLt
    have hj : j.val < 64 := j.isLt
    match a with
    | ⟨0, _⟩ => rfl
    | ⟨1, _⟩ =>
      show (k.val * 64 + j.val) / 64 % 128 = k.val
      omega
    | ⟨2, _⟩ =>
      show (k.val * 64 + j.val) % 64 = j.val
      omega)

/-- Slice `2` of the weights, flattened to a `128 × 64` matrix and read at row `k`, column `j`, is the weights at `(2, k, j)`:
    the flat position `k·64 + j` splits back into `k` and `j`. -/
theorem widx_v117_at (r : Fin 100000) (j : Fin 64) (k : Fin 128) :
    idx_main_v115 (idx_main_v116 (ridx_main_v117 (ix2 r j) k)) = ix3 (2 : Fin 3) k j :=
  funext fun a => Fin.ext (by
    have hk : k.val < 128 := k.isLt
    have hj : j.val < 64 := j.isLt
    match a with
    | ⟨0, _⟩ => rfl
    | ⟨1, _⟩ =>
      show (k.val * 64 + j.val) / 64 % 128 = k.val
      omega
    | ⟨2, _⟩ =>
      show (k.val * 64 + j.val) % 64 = j.val
      omega)

/-- The product of the first layer's result with the first weight slice: `Σ_k h[r,k]·W[0,k,j]`. -/
theorem dot81_at (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 x5 : (⟨S128, .f32⟩ : BufTy).Contents (Elt Ideal)) (x6 : (⟨S3x128x64, .f32⟩ : BufTy).Contents (Elt Ideal)) (r : Fin 100000) (j : Fin 64) :
    val_main_v81 (F := Ideal) x0 x1 x3 x4 x5 x6 (ix2 r j) =
      ∑ k : Fin 128, val_main_v78 (F := Ideal) x0 x1 x3 x4 x5 (ix2 r k) * x6 (ix3 (0 : Fin 3) k j) := by
  rw [val_main_v81_apply]
  refine Finset.sum_congr rfl fun k _ => ?_
  rw [val_main_v80_apply, val_main_v79_apply, lidx_v81_at r j k, widx_v81_at r j k]

/-- The product of its first propagation with the second weight slice: `Σ_k th1[r,k]·W[1,k,j]`. -/
theorem dot97_at (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 x5 : (⟨S128, .f32⟩ : BufTy).Contents (Elt Ideal)) (x6 : (⟨S3x128x64, .f32⟩ : BufTy).Contents (Elt Ideal)) (r : Fin 100000) (j : Fin 64) :
    val_main_v97 (F := Ideal) x0 x1 x3 x4 x5 x6 (ix2 r j) =
      ∑ k : Fin 128, val_main_v94 (F := Ideal) x0 x1 x3 x4 x5 (ix2 r k) * x6 (ix3 (1 : Fin 3) k j) := by
  rw [val_main_v97_apply]
  refine Finset.sum_congr rfl fun k _ => ?_
  rw [val_main_v96_apply, val_main_v95_apply, lidx_v97_at r j k, widx_v97_at r j k]

/-- The product of the third Chebyshev term `2·q − h` with the third weight slice: `Σ_k (2·q[r,k] − h[r,k])·W[2,k,j]`. -/
theorem dot117_at (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 x5 : (⟨S128, .f32⟩ : BufTy).Contents (Elt Ideal)) (x6 : (⟨S3x128x64, .f32⟩ : BufTy).Contents (Elt Ideal)) (r : Fin 100000) (j : Fin 64) :
    val_main_v117 (F := Ideal) x0 x1 x3 x4 x5 x6 (ix2 r j) =
      ∑ k : Fin 128, (Cheb.two * val_main_v111 (F := Ideal) x0 x1 x3 x4 x5 (ix2 r k) - val_main_v78 (F := Ideal) x0 x1 x3 x4 x5 (ix2 r k))
        * x6 (ix3 (2 : Fin 3) k j) := by
  rw [val_main_v117_apply]
  refine Finset.sum_congr rfl fun k _ => ?_
  rw [val_main_v116_apply, val_main_v115_apply, val_main_v114_apply, val_main_v113_apply, val_main_v112_apply, val_main_cst_21_apply,
    lidx_v117_at r j k, widx_v117_at r j k]
  rfl

/-- The bias vector broadcast over the rows, read at `(r, j)`, is the bias row at `(0, j)`. -/
theorem bias2_at (x7 : (⟨S64, .f32⟩ : BufTy).Contents (Elt Ideal)) (h : S64.ShapeCasts S1x64) (r : Fin 100000) (j : Fin 64) :
    val_main_v120 (F := Ideal) x7 (ix2 r j) = shapeCast S1x64 x7 h (ix2 (0 : Fin 1) j) := by
  rw [val_main_v120_apply, val_main_v119_apply, shapeCast_a_1a_apply (a := 64) x7 h (0 : Fin 1) j]
  exact congrArg x7 (funext fun a => Fin.ext (by match a with | ⟨0, _⟩ => rfl))

/-- The slope vector broadcast over the rows, read at `(r, j)`, is the slope row at `(0, j)`. -/
theorem slope2_at (x8 : (⟨S64, .f32⟩ : BufTy).Contents (Elt Ideal)) (h : S64.ShapeCasts S1x64) (r : Fin 100000) (j : Fin 64) :
    val_main_v125 (F := Ideal) x8 (ix2 r j) = shapeCast S1x64 x8 h (ix2 (0 : Fin 1) j) := by
  rw [val_main_v125_apply, val_main_v124_apply, shapeCast_a_1a_apply (a := 64) x8 h (0 : Fin 1) j]
  exact congrArg x8 (funext fun a => Fin.ext (by match a with | ⟨0, _⟩ => rfl))

/-- The second layer's pre-activation at `(r, j)`: the three products added in order, then the bias. -/
theorem pre2_at (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 x5 : (⟨S128, .f32⟩ : BufTy).Contents (Elt Ideal)) (x6 : (⟨S3x128x64, .f32⟩ : BufTy).Contents (Elt Ideal)) (x7 : (⟨S64, .f32⟩ : BufTy).Contents (Elt Ideal)) (h : S64.ShapeCasts S1x64) (r : Fin 100000) (j : Fin 64) :
    val_main_v121 (F := Ideal) x0 x1 x3 x4 x5 x6 x7 (ix2 r j) =
      Cheb.pre2 (val_main_v78 (F := Ideal) x0 x1 x3 x4 x5) (val_main_v94 (F := Ideal) x0 x1 x3 x4 x5) (val_main_v111 (F := Ideal) x0 x1 x3 x4 x5)
        x6 (shapeCast S1x64 x7 h) r j := by
  rw [val_main_v121_apply, val_main_v118_apply, val_main_v98_apply, dot81_at x0 x1 x3 x4 x5 x6 r j, dot97_at x0 x1 x3 x4 x5 x6 r j,
    dot117_at x0 x1 x3 x4 x5 x6 r j, bias2_at x7 h r j]
  rfl

/-- The reference's second layer likewise, over the first layer's result and its two propagations. -/
theorem v127_eq (x0 : (⟨S100000x128, .f32⟩ : BufTy).Contents (Elt Ideal)) (x1 : (⟨S2x1600000, .i32⟩ : BufTy).Contents (Elt Ideal)) (x3 : (⟨S3x128x128, .f32⟩ : BufTy).Contents (Elt Ideal)) (x4 x5 : (⟨S128, .f32⟩ : BufTy).Contents (Elt Ideal))
    (x6 : (⟨S3x128x64, .f32⟩ : BufTy).Contents (Elt Ideal)) (x7 x8 : (⟨S64, .f32⟩ : BufTy).Contents (Elt Ideal)) (h : S64.ShapeCasts S1x64) :
    val_main_v127 (F := Ideal) x0 x1 x3 x4 x5 x6 x7 x8 =
      Cheb.layer2 (val_main_v78 (F := Ideal) x0 x1 x3 x4 x5) (val_main_v94 (F := Ideal) x0 x1 x3 x4 x5) (val_main_v111 (F := Ideal) x0 x1 x3 x4 x5)
        x6 (shapeCast S1x64 x7 h) (shapeCast S1x64 x8 h) := by
  funext i
  obtain ⟨r, j, rfl⟩ : ∃ (r : Fin 100000) (j : Fin 64), i = ix2 r j := ⟨i 0, i 1, eq_ix2 i⟩
  show val_main_v127 (F := Ideal) x0 x1 x3 x4 x5 x6 x7 x8 (ix2 r j) =
    Cheb.prelu (Cheb.pre2 (val_main_v78 (F := Ideal) x0 x1 x3 x4 x5) (val_main_v94 (F := Ideal) x0 x1 x3 x4 x5)
        (val_main_v111 (F := Ideal) x0 x1 x3 x4 x5) x6 (shapeCast S1x64 x7 h) r j)
      (shapeCast S1x64 x8 h (ix2 (0 : Fin 1) j))
  rw [val_main_v127_apply, val_main_v123_apply, val_main_v126_apply, val_main_v122_apply, val_main_cst_22_apply,
    slope2_at x8 h r j, pre2_at x0 x1 x3 x4 x5 x6 x7 h r j]
  rfl

end Cert.RefBridge

end
-- ==== Proof.RefPool.lean ====
import proofs.«402110_j80401787781631_2_alg».proof.Proof.ReadP
import proofs.«402110_j80401787781631_2_alg».proof.Proof.ChebSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.RefBridge
open Cert.ReferenceIdeal Cert.ReferenceIdeal.Read

open scoped BigOperators

/-! ## Where an update lands

The scatter's dimension numbers: the updates' axis 1 is the window axis, the operand's axis 0 is the inserted one and
the one the (single-component) start index names, and the index vector lies on the scatter indices' unit axis 1. So the
update at (n, c') has start (id of node n, read signed; 0) and window coordinate (0; c'). -/

/-- The scatter-indices index an update index reads its start component at: its row, on the unit axis. -/
theorem pool_siIdx (j : S100000x64.Idx)
    (c : Fin scatter_S64x64_S100000x1_S100000x64_1_0_0_1.scatterDimsToOperandDims.length) :
    scatter_S64x64_S100000x1_S100000x64_1_0_0_1.siIdx j c = ix2 (j 0) (0 : Fin 1) := by
  funext b
  match b with
  | ⟨0, _⟩ => rfl
  | ⟨1, _⟩ => exact Fin.ext (Nat.lt_one_iff.1 (Fin.isLt _))

theorem pool_start_zero (j : S100000x64.Idx) (idx : IVec S100000x1 32) :
    scatter_S64x64_S100000x1_S100000x64_1_0_0_1.start j idx (0 : Fin 2) = (idx (ix2 (j 0) (0 : Fin 1))).toInt := by
  unfold ScatterDims.start
  rw [dif_pos (by decide), pool_siIdx]
  rfl

theorem pool_start_one (j : S100000x64.Idx) (idx : IVec S100000x1 32) :
    scatter_S64x64_S100000x1_S100000x64_1_0_0_1.start j idx (1 : Fin 2) = 0 := by
  unfold ScatterDims.start
  rw [dif_neg (by decide)]

theorem pool_window_zero (j : S100000x64.Idx) :
    scatter_S64x64_S100000x1_S100000x64_1_0_0_1.window j (0 : Fin 2) = 0 := by
  unfold ScatterDims.window
  rw [dif_neg (by decide)]

theorem pool_window_one (j : S100000x64.Idx) :
    scatter_S64x64_S100000x1_S100000x64_1_0_0_1.window j (1 : Fin 2) = (j 1).val := by
  unfold ScatterDims.window
  rw [dif_pos (by decide)]
  rfl

/-- Where an update index lands: row, the signed graph id of its node, when that is a row of the result; column, its own. -/
theorem pool_resultIdx (j : S100000x64.Idx) (idx : IVec S100000x1 32) (i : S64x64.Idx) :
    scatter_S64x64_S100000x1_S100000x64_1_0_0_1.resultIdx? j idx = some i ↔
      (idx (ix2 (j 0) (0 : Fin 1))).toInt = ((i 0).val : Int) ∧ j 1 = i 1 := by
  have hi0 : (i 0).val < 64 := (i 0).isLt
  have hi1 : (i 1).val < 64 := (i 1).isLt
  have hj1 : (j 1).val < 64 := (j 1).isLt
  have s0 := pool_start_zero j idx
  have s1 := pool_start_one j idx
  have w0 := pool_window_zero j
  have w1 := pool_window_one j
  unfold ScatterDims.resultIdx?
  split
  · rename_i h
    have h0 := h (0 : Fin 2)
    rw [s0, w0] at h0
    constructor
    · intro e
      have e' := Option.some.inj e
      have e0 : ((scatter_S64x64_S100000x1_S100000x64_1_0_0_1.start j idx (0 : Fin 2) + (scatter_S64x64_S100000x1_S100000x64_1_0_0_1.window j (0 : Fin 2) : Int)).toNat) = (i 0).val :=
        congrArg (fun f : S64x64.Idx => (f 0).val) e'
      have e1 : ((scatter_S64x64_S100000x1_S100000x64_1_0_0_1.start j idx (1 : Fin 2) + (scatter_S64x64_S100000x1_S100000x64_1_0_0_1.window j (1 : Fin 2) : Int)).toNat) = (i 1).val :=
        congrArg (fun f : S64x64.Idx => (f 1).val) e'
      rw [s0, w0] at e0
      rw [s1, w1] at e1
      refine ⟨by omega, Fin.ext (by omega)⟩
    · rintro ⟨e0, e1⟩
      refine congrArg some (funext fun a => ?_)
      match a with
      | ⟨0, _⟩ =>
        refine Fin.ext ?_
        show (scatter_S64x64_S100000x1_S100000x64_1_0_0_1.start j idx (0 : Fin 2) + (scatter_S64x64_S100000x1_S100000x64_1_0_0_1.window j (0 : Fin 2) : Int)).toNat = (i 0).val
        rw [s0, w0]; omega
      | ⟨1, _⟩ =>
        refine Fin.ext ?_
        show (scatter_S64x64_S100000x1_S100000x64_1_0_0_1.start j idx (1 : Fin 2) + (scatter_S64x64_S100000x1_S100000x64_1_0_0_1.window j (1 : Fin 2) : Int)).toNat = (i 1).val
        rw [s1, w1, ← e1]; omega
  · rename_i h
    constructor
    · intro e; exact absurd e (by simp)
    · rintro ⟨e0, e1⟩
      refine absurd (fun a => ?_) h
      match a with
      | ⟨0, _⟩ =>
        show 0 ≤ scatter_S64x64_S100000x1_S100000x64_1_0_0_1.start j idx (0 : Fin 2) + (scatter_S64x64_S100000x1_S100000x64_1_0_0_1.window j (0 : Fin 2) : Int) ∧ scatter_S64x64_S100000x1_S100000x64_1_0_0_1.start j idx (0 : Fin 2) + (scatter_S64x64_S100000x1_S100000x64_1_0_0_1.window j (0 : Fin 2) : Int) < ((64 : Nat) : Int)
        rw [s0, w0]; omega
      | ⟨1, _⟩ =>
        show 0 ≤ scatter_S64x64_S100000x1_S100000x64_1_0_0_1.start j idx (1 : Fin 2) + (scatter_S64x64_S100000x1_S100000x64_1_0_0_1.window j (1 : Fin 2) : Int) ∧ scatter_S64x64_S100000x1_S100000x64_1_0_0_1.start j idx (1 : Fin 2) + (scatter_S64x64_S100000x1_S100000x64_1_0_0_1.window j (1 : Fin 2) : Int) < ((64 : Nat) : Int)
        rw [s1, w1]; omega

/-- The same at coordinates: update (n, c') lands on (g, c) exactly when node n's signed graph id is g and c' = c. -/
theorem pool_resultIdx_ix (n : Fin 100000) (c' : Fin 64) (idx : IVec S100000x1 32) (g c : Fin 64) :
    scatter_S64x64_S100000x1_S100000x64_1_0_0_1.resultIdx? (ix2 n c') idx = some (ix2 g c) ↔
      (idx (ix2 n (0 : Fin 1))).toInt = (g.val : Int) ∧ c' = c :=
  pool_resultIdx (ix2 n c') idx (ix2 g c)

/-! ## The sum over the updates that land on one element -/

/-- A sum over the columns of terms kept only at one column (and under a condition on the row) is that column's term. -/
theorem pool_inner (A : Prop) [Decidable A] (f : Fin 64 → EReal) (c : Fin 64) :
    (∑ c' : Fin 64, if A ∧ c' = c then f c' else 0) = if A then f c else 0 := by
  by_cases hA : A
  · rw [if_pos hA]
    have hc : ∀ c' : Fin 64, (if A ∧ c' = c then f c' else 0) = if c' = c then f c' else 0 :=
      fun c' => if_congr (and_iff_right hA) rfl rfl
    rw [Finset.sum_congr rfl (fun c' _ => hc c'), Finset.sum_ite_eq' Finset.univ c f, if_pos (Finset.mem_univ c)]
  · rw [if_neg hA]
    exact Finset.sum_eq_zero (fun c' _ => if_neg (fun h => hA h.1))

/-- The accumulating scatter of the rows of an array by their signed graph ids, onto zeros, read at row g, column c:
    the sum of column c over the nodes whose id is g. -/
theorem scatter_pool_apply (x : S64x64.Idx → EReal) (hx : ∀ i, x i = 0) (idx : IVec S100000x1 32)
    (upd : S100000x64.Idx → EReal) (g c : Fin 64) :
    Ideal.hostScatterAdd scatter_S64x64_S100000x1_S100000x64_1_0_0_1 x idx upd (ix2 g c) =
      ∑ n : Fin 100000, if (idx (ix2 n (0 : Fin 1))).toInt = (g.val : Int) then upd (ix2 n c) else 0 := by
  unfold Ideal.hostScatterAdd
  rw [hx, zero_add, Finset.sum_filter, sum_idx2]
  refine Finset.sum_congr rfl (fun n _ => ?_)
  have hc : ∀ c' : Fin 64,
      (if scatter_S64x64_S100000x1_S100000x64_1_0_0_1.resultIdx? (ix2 n c') idx = some (ix2 g c) then upd (ix2 n c') else 0) =
        if ((idx (ix2 n (0 : Fin 1))).toInt = (g.val : Int) ∧ c' = c) then upd (ix2 n c') else 0 :=
    fun c' => if_congr (pool_resultIdx_ix n c' idx g c) rfl rfl
  rw [Finset.sum_congr rfl (fun c' _ => hc c')]
  exact pool_inner _ (fun c' => upd (ix2 n c')) c

/-- So the scatter onto zeros is the per-graph sum. -/
theorem scatter_pool (x : S64x64.Idx → EReal) (hx : ∀ i, x i = 0) (idx : IVec S100000x1 32) (upd : S100000x64.Idx → EReal) :
    Ideal.hostScatterAdd scatter_S64x64_S100000x1_S100000x64_1_0_0_1 x idx upd = Cheb.pool upd idx := by
  funext i
  obtain ⟨g, c, rfl⟩ : ∃ g c : Fin 64, i = ix2 g c := ⟨i 0, i 1, eq_ix2 i⟩
  exact scatter_pool_apply x hx idx upd g c

/-! ## The operand and the ids -/

/-- The array the scatter adds onto holds the zero word everywhere. -/
theorem operand_zero (i : S64x64.Idx) : val_main_v128 (F := Ideal) i = 0 := by
  rw [val_main_v128_apply, val_main_cst_23_apply]
  exact Ideal.ofBits_zero_f32

/-- The scatter indices (the ids broadcast along a new unit axis) and the ids recast to a column are one array. -/
theorem ids_eq (x2 : (⟨S100000, .i32⟩ : BufTy).Contents (Elt Ideal)) (h : S100000.ShapeCasts S100000x1) :
    val_main_v129 (F := Ideal) x2 = shapeCast S100000x1 x2 h := by
  funext k
  obtain ⟨n, u, rfl⟩ : ∃ (n : Fin 100000) (u : Fin 1), k = ix2 n u := ⟨k 0, k 1, eq_ix2 k⟩
  rw [val_main_v129_apply]
  refine Eq.trans (congrArg x2 (eq_ix1 _)) (shapeCast_apply x2 h (ix2 n u) (ix1 n) ?_).symm
  have hu : u.val = 0 := by omega
  rw [Shape.rowMajor_val_two, Shape.rowMajor_val_one]
  show n.val = n.val * 1 + u.val
  omega

/-- The reference's scatter-add of the second layer's rows by graph id, read index by index, is the per-graph sum. -/
theorem v130_eq (x0 : (⟨S100000x128, .f32⟩ : BufTy).Contents (Elt Ideal)) (x1 : (⟨S2x1600000, .i32⟩ : BufTy).Contents (Elt Ideal)) (x2 : (⟨S100000, .i32⟩ : BufTy).Contents (Elt Ideal)) (x3 : (⟨S3x128x128, .f32⟩ : BufTy).Contents (Elt Ideal)) (x4 x5 : (⟨S128, .f32⟩ : BufTy).Contents (Elt Ideal))
    (x6 : (⟨S3x128x64, .f32⟩ : BufTy).Contents (Elt Ideal)) (x7 x8 : (⟨S64, .f32⟩ : BufTy).Contents (Elt Ideal)) (h : S100000.ShapeCasts S100000x1) :
    val_main_v130 (F := Ideal) x0 x1 x2 x3 x4 x5 x6 x7 x8 =
      Cheb.pool (val_main_v127 (F := Ideal) x0 x1 x3 x4 x5 x6 x7 x8) (shapeCast S100000x1 x2 h) := by
  show Ideal.hostScatterAdd scatter_S64x64_S100000x1_S100000x64_1_0_0_1 (val_main_v128 (F := Ideal))
      (val_main_v129 (F := Ideal) x2) (val_main_v127 (F := Ideal) x0 x1 x3 x4 x5 x6 x7 x8) = _
  generalize val_main_v127 (F := Ideal) x0 x1 x3 x4 x5 x6 x7 x8 = hv
  rw [scatter_pool _ operand_zero (val_main_v129 (F := Ideal) x2) hv]
  exact congrArg (Cheb.pool hv) (ids_eq x2 h)

end Cert.RefBridge

end
-- ==== Proof.KValue.lean ====
/-
  The idealized program's result array, read back through its run: the per-graph sums divided by the counts, where the
  sums pool the second layer's rows, the second layer is taken over the first layer's result and its two propagations,
  and the first layer over the node features and theirs. Each region's array is its layer's (or the pooling's) value of
  the arrays it found; each host stretch between them is the shared propagation step; so the result is, operation by
  operation, the reference's.
-/
import proofs.«402110_j80401787781631_2_alg».proof.Proof.KChain
import proofs.«402110_j80401787781631_2_alg».proof.Proof.Bridge
import proofs.«402110_j80401787781631_2_alg».proof.Proof.Layer1Value
import proofs.«402110_j80401787781631_2_alg».proof.Proof.Layer2Value
import proofs.«402110_j80401787781631_2_alg».proof.Proof.PoolValue
import proofs.«402110_j80401787781631_2_alg».proof.Proof.RefLayers
import proofs.«402110_j80401787781631_2_alg».proof.Proof.RefPool

set_option maxRecDepth 16384

noncomputable section

namespace Cert.KernelIdeal.Result

open Cert.KernelIdeal Cert.KernelIdeal.Gen Cert.KernelIdeal.Chain
open Idealize.ShloMosaic Idealize.ShloMosaic.TcCoe Idealize.SL.Sem
open Cert.ReferenceIdeal.Read (val_main_v45 val_main_v62 val_main_v78 val_main_v94 val_main_v111 val_main_v127 val_main_v130 val_main_v139)

variable (m : (ℓ : Loc nD τ sig) → Buf (Elt Ideal) ℓ) (ρ : Dev nD → PrngReg)

/-! ## After the first region -/

theorem at4_v58 (c : Dev nD) : W4 m ρ c (Proc.devRef .tc main_v58) =
    val_main_v78 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 6).trans ((Cert.KernelIdeal.L1.layer1_arr (V3 m ρ) c).trans ?_)
  show Cheb.layer1 (W3 m ρ c (Proc.devRef .tc main_arg0)) (W3 m ρ c (Proc.devRef .tc main_v42)) (W3 m ρ c (Proc.devRef .tc main_v55))
    (W3 m ρ c (Proc.devRef .tc main_arg3)) (W3 m ρ c (Proc.devRef .tc main_v56)) (W3 m ρ c (Proc.devRef .tc main_v57)) = _
  rw [W3_arg0, W3_v42, W3_v55, W3_arg3, W3_v56, W3_v57,
    Cert.RefBridge.v78_eq _ _ _ _ _ shapeCasts_S128_S1x128,
    Cert.RefBridge.v62_prop, Cert.RefBridge.v45_prop, Cert.Bridge.propR_eq, Cert.Bridge.propR_eq] <;> rfl

theorem at4_v29 (c : Dev nD) : W4 m ρ c (Proc.devRef .tc main_v29) = wK (F := Ideal) (m ((c : Thread nD τ).loc main_arg1)) :=
  (W4_of_ne m ρ c main_v29 (by decide)).trans (W3_v29 m ρ c)
theorem at4_v1 (c : Dev nD) : W4 m ρ c (Proc.devRef .tc main_v1) = rowK (F := Ideal) (m ((c : Thread nD τ).loc main_arg1)) :=
  (W4_of_ne m ρ c main_v1 (by decide)).trans (W3_v1 m ρ c)
theorem at4_v3 (c : Dev nD) : W4 m ρ c (Proc.devRef .tc main_v3) = colK (F := Ideal) (m ((c : Thread nD τ).loc main_arg1)) :=
  (W4_of_ne m ρ c main_v3 (by decide)).trans (W3_v3 m ρ c)
theorem at4_arg2 (c : Dev nD) : W4 m ρ c (Proc.devRef .tc main_arg2) = (m ((c : Thread nD τ).loc main_arg2)) :=
  (W4_of_ne m ρ c main_arg2 (by decide)).trans (W3_arg2 m ρ c)
theorem at4_arg6 (c : Dev nD) : W4 m ρ c (Proc.devRef .tc main_arg6) = (m ((c : Thread nD τ).loc main_arg6)) :=
  (W4_of_ne m ρ c main_arg6 (by decide)).trans (W3_arg6 m ρ c)
theorem at4_arg7 (c : Dev nD) : W4 m ρ c (Proc.devRef .tc main_arg7) = (m ((c : Thread nD τ).loc main_arg7)) :=
  (W4_of_ne m ρ c main_arg7 (by decide)).trans (W3_arg7 m ρ c)
theorem at4_arg8 (c : Dev nD) : W4 m ρ c (Proc.devRef .tc main_arg8) = (m ((c : Thread nD τ).loc main_arg8)) :=
  (W4_of_ne m ρ c main_arg8 (by decide)).trans (W3_arg8 m ρ c)

/-! ## The second region's entry and exit -/

theorem at5_v71 (c : Dev nD) : W5 m ρ c (Proc.devRef .tc main_v71) =
    val_main_v94 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [W5_v71, at4_v29, at4_v1, at4_v3, at4_v58, Cert.RefBridge.v94_prop, Cert.Bridge.propR_eq] <;> rfl

theorem at5_v84 (c : Dev nD) : W5 m ρ c (Proc.devRef .tc main_v84) =
    val_main_v111 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  rw [W5_v84, at4_v29, at4_v1, at4_v3, at4_v58, Cert.RefBridge.v111_prop, Cert.RefBridge.v94_prop, Cert.Bridge.propR_eq, Cert.Bridge.propR_eq] <;> rfl

theorem at6_v87 (c : Dev nD) : W6 m ρ c (Proc.devRef .tc main_v87) =
    val_main_v127 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 6).trans ((Cert.KernelIdeal.L2.layer2_arr (V5 m ρ) c).trans ?_)
  show Cheb.layer2 (W5 m ρ c (Proc.devRef .tc main_v58)) (W5 m ρ c (Proc.devRef .tc main_v71)) (W5 m ρ c (Proc.devRef .tc main_v84))
    (W5 m ρ c (Proc.devRef .tc main_arg6)) (W5 m ρ c (Proc.devRef .tc main_v85)) (W5 m ρ c (Proc.devRef .tc main_v86)) = _
  rw [W5_v58, at5_v71, at5_v84, W5_arg6, W5_v85, W5_v86, at4_v58, at4_arg6, at4_arg7, at4_arg8,
    Cert.RefBridge.v127_eq _ _ _ _ _ _ _ _ shapeCasts_S64_S1x64] <;> rfl

theorem at6_arg2 (c : Dev nD) : W6 m ρ c (Proc.devRef .tc main_arg2) = (m ((c : Thread nD τ).loc main_arg2)) :=
  (W6_of_ne m ρ c main_arg2 (by decide)).trans ((W5_arg2 m ρ c).trans (at4_arg2 m ρ c))

/-! ## The pooling region and the last stretch -/

theorem at8_v89 (c : Dev nD) : W8 m ρ c (Proc.devRef .tc main_v89) =
    val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 2).trans ((Cert.KernelIdeal.Pool.pool_arr (V7 m ρ) c).trans ?_)
  show Cheb.pool (W7 m ρ c (Proc.devRef .tc main_v87)) (W7 m ρ c (Proc.devRef .tc main_v88)) = _
  rw [W7_v87, W7_v88, at6_v87, at6_arg2,
    Cert.RefBridge.v130_eq _ _ _ _ _ _ _ _ _ shapeCasts_S100000_S100000x1] <;> rfl

theorem at8_arg2 (c : Dev nD) : W8 m ρ c (Proc.devRef .tc main_arg2) = (m ((c : Thread nD τ).loc main_arg2)) :=
  (W8_of_ne m ρ c main_arg2 (by decide)).trans ((W7_arg2 m ρ c).trans (at6_arg2 m ρ c))

/-- The result array after the run is the reference's last stage of the arguments. -/
theorem result (c : Dev nD) : W9 m ρ c (Proc.devRef .tc main_v98) =
    val_main_v139 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [W9_v98, at8_v89, at8_arg2, Cert.Bridge.v139_div] <;> rfl

end Cert.KernelIdeal.Result
end
-- ==== Proof.lean ====
/-
  The certificate of a two-layer Chebyshev graph convolution with a parametric rectifier and a per-graph mean pool,
  against its array-language reference.

  The program runs three kernel regions among host stretches. The host stretches (the edge weights from the degrees, and
  the propagation step: gather the features at an edge's source, scale by the edge's weight, add up at the edge's
  target) are the same operations in both programs. Each layer region computes, row block by row block,
  `x·W₀ + (L x)·W₁ + (2·L(L x) − x)·W₂ + b` and the rectifier of it, which is the reference's layer index by index
  (a product into a zero accumulator is the plain sum over the contracted axis, and a change of float format is the
  identity over the extended reals). The pooling region adds up, tile by tile of 5000 nodes, the one-hot matrix of the
  graph ids times the features; over the extended reals `1·x = x` and `0·x = 0`, so after the last tile row `g` holds the
  sum of the rows whose id is `g`: the reference's scatter-add. Both programs then divide by the same counts.
  No finiteness of the inputs is used: every step is a re-association of sums or an identity of terms.
-/
import proofs.«402110_j80401787781631_2_alg».proof.Defs
import proofs.«402110_j80401787781631_2_alg».proof.Proof.Gen.Kernel
import proofs.«402110_j80401787781631_2_alg».proof.Proof.Gen.Kernel.Skeleton
import proofs.«402110_j80401787781631_2_alg».proof.Proof.Gen.Kernel.Launch
import proofs.«402110_j80401787781631_2_alg».proof.Proof.Gen.Kernel.Points
import proofs.«402110_j80401787781631_2_alg».proof.Proof.Gen.Kernel.Frame
import proofs.«402110_j80401787781631_2_alg».proof.Proof.Gen.KernelIdeal
import proofs.«402110_j80401787781631_2_alg».proof.Proof.Gen.KernelIdeal.Skeleton
import proofs.«402110_j80401787781631_2_alg».proof.Proof.Gen.KernelIdeal.Launch
import proofs.«402110_j80401787781631_2_alg».proof.Proof.Gen.KernelIdeal.Points
import proofs.«402110_j80401787781631_2_alg».proof.Proof.Gen.KernelIdeal.Frame
import proofs.«402110_j80401787781631_2_alg».proof.Proof.Gen.ReferenceIdeal
import proofs.«402110_j80401787781631_2_alg».proof.Proof.Gen.Pre_finite_inputs
import proofs.«402110_j80401787781631_2_alg».proof.Proof.KRun
import proofs.«402110_j80401787781631_2_alg».proof.Proof.KValue
import proofs.«402110_j80401787781631_2_alg».proof.Proof.RunP
import Idealize.ShloMosaic.Adequacy
import Idealize.ShloMosaic.Init

noncomputable section

namespace Cert.Proof

open Idealize.ShloMosaic Idealize.ShloMosaic.TcCoe Idealize.SL.Sem

/-- The word-level program runs and keeps its arguments. -/
theorem frame_p : Cert.frame_Kernel := fun m ρ _ => Cert.Kernel.Gen.frame m ρ

/-- The idealized program runs and keeps its arguments. -/
theorem frame_pi : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals both programs end with the same result: the idealized program's result array is the
    reference's last stage of the arguments, and the reference's run ends at that stage of arguments that agree. -/
theorem algebraic : Cert.algebraic_KernelIdeal_ReferenceIdeal := by
  intro m ρ m' ρ' _ hagree
  refine ⟨fun c => Cert.KernelIdeal.Gen.W9 m ρ c (Proc.devRef .tc Cert.KernelIdeal.main_v98),
    Cert.KernelIdeal.RunResult.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  show _ = Cert.KernelIdeal.Gen.W9 m ρ c (Proc.devRef .tc Cert.KernelIdeal.main_v98)
  rw [Cert.KernelIdeal.Result.result m ρ c]
  unfold Cert.ReferenceIdeal.Value.res_main_v139
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
